-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192 : Shape := ⟨1, ![8192]⟩
abbrev S16384x4096 : Shape := ⟨2, ![16384, 4096]⟩
abbrev S4096x16384 : Shape := ⟨2, ![4096, 16384]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_v13 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v13 main_v16
  let main_c_6 : IVec S_ 32 := constantI S_ 32 16384#32
  let main_v18 : IVec S8192 32 := broadcastInDim S8192 ![] bcast_S_S8192 main_c_6
  let main_v19 : IVec S8192 1 := cmpi .slt main_arg1 main_v18
  let main_c_7 : IVec S_ 1 := constantI S_ 1 1#1
  let main_v20 : IVec S_ 1 := (fun x v => Host.reduce IntOp.andi x v reducesTo_S8192_S_d0 h_S_) main_v19 main_c_7
  let main_v21 : IVec S_ 1 := andi main_v17 main_v20
  main_v21

def fn {F : FTy → Type} [FloatOps F] (main_arg0 : FVec F S4096x4096 .f32) (main_arg1 : IVec S8192 32) (main_arg2 : FVec F S16384x4096 .f32) (main_arg3 : FVec F S4096x16384 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x4096 .f32 := Host.absf main_arg2
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096x16384 .f32 := Host.absf main_arg3
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_c_4 : IVec S_ 32 := constantI S_ 32 4294950912#32
  let main_v14 : IVec S8192 32 := broadcastInDim S8192 ![] bcast_S_S8192 main_c_4
  let main_v15 : IVec S8192 1 := cmpi .sge main_arg1 main_v14
  let main_c_5 : IVec S_ 1 := constantI S_ 1 1#1
  fn_part1 (F := F) main_arg1 main_v13 main_v15 main_c_5
-- ==== Kernel.lean ====
abbrev S4096x4096 : Shape := ⟨2, ![4096, 4096]⟩
abbrev S8192 : Shape := ⟨1, ![8192]⟩
abbrev S16384x4096 : Shape := ⟨2, ![16384, 4096]⟩
abbrev S4096x16384 : Shape := ⟨2, ![4096, 16384]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x4096 : Shape := ⟨2, ![8192, 4096]⟩
abbrev S4096x8192 : Shape := ⟨2, ![4096, 8192]⟩
abbrev S1024x4096 : Shape := ⟨2, ![1024, 4096]⟩
abbrev S512x4096 : Shape := ⟨2, ![512, 4096]⟩
abbrev S1024x512 : Shape := ⟨2, ![1024, 512]⟩
abbrev S1024x2048 : Shape := ⟨2, ![1024, 2048]⟩
abbrev S2048x512 : Shape := ⟨2, ![2048, 512]⟩

abbrev nBuf : Space → Nat
  | .hbm => 56
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S8192, .i32⟩
  | .hbm, ⟨2, _⟩ => ⟨S16384x4096, .f32⟩
  | .hbm, ⟨3, _⟩ => ⟨S4096x16384, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S1, .i32⟩
  | .hbm, ⟨13, _⟩ => ⟨S_, .i32⟩
  | .hbm, ⟨14, _⟩ => ⟨S8192x1, .i32⟩
  | .hbm, ⟨15, _⟩ => ⟨S8192x1, .i1⟩
  | .hbm, ⟨16, _⟩ => ⟨S1x1, .i32⟩
  | .hbm, ⟨17, _⟩ => ⟨S8192x1, .i32⟩
  | .hbm, ⟨18, _⟩ => ⟨S8192x1, .i1⟩
  | .hbm, ⟨19, _⟩ => ⟨S8192x1, .i1⟩
  | .hbm, ⟨20, _⟩ => ⟨S_, .i1⟩
  | .hbm, ⟨21, _⟩ => ⟨S8192, .i1⟩
  | .hbm, ⟨22, _⟩ => ⟨S8192x4096, .f32⟩
  | .hbm, ⟨23, _⟩ => ⟨S8192x4096, .i1⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | .hbm, ⟨28, _⟩ => ⟨S16384x4096, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S1, .i32⟩
  | .hbm, ⟨38, _⟩ => ⟨S_, .i32⟩
  | .hbm, ⟨39, _⟩ => ⟨S8192x1, .i32⟩
  | .hbm, ⟨40, _⟩ => ⟨S8192x1, .i1⟩
  | .hbm, ⟨41, _⟩ => ⟨S1x1, .i32⟩
  | .hbm, ⟨42, _⟩ => ⟨S8192x1, .i32⟩
  | .hbm, ⟨43, _⟩ => ⟨S8192x1, .i1⟩
  | .hbm, ⟨44, _⟩ => ⟨S8192x1, .i1⟩
  | .hbm, ⟨45, _⟩ => ⟨S_, .i1⟩
  | .hbm, ⟨46, _⟩ => ⟨S8192, .i1⟩
  | .hbm, ⟨47, _⟩ => ⟨S8192x4096, .f32⟩
  | .hbm, ⟨48, _⟩ => ⟨S8192x4096, .i1⟩
  | .hbm, ⟨49, _⟩ => ⟨S_, .f32⟩
  | .hbm, ⟨50, _⟩ => ⟨S8192x4096, .f32⟩
  | .hbm, ⟨51, _⟩ => ⟨S8192x4096, .f32⟩
  | .hbm, ⟨52, _⟩ => ⟨S8192x4096, .bf16⟩
  | .hbm, ⟨53, _⟩ => ⟨S4096x4096, .bf16⟩
  | .hbm, ⟨54, _⟩ => ⟨S4096x8192, .bf16⟩
  | .hbm, ⟨55, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x4096_0 : S8192.BroadcastsInDim S8192x4096 (![0] : Fin 1 → Fin S8192x4096.rank)
  bcast_S_S8192x4096 : S_.BroadcastsInDim S8192x4096 (![] : Fin 0 → Fin S8192x4096.rank)
  bitsLt_bf16_f32 : FTy.bits .bf16 < FTy.bits .f32
  transposes_S4096x16384_S16384x4096_1_0 : S4096x16384.Transposes [1, 0] S16384x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  gather_S16384x4096_S8192x1_S8192x4096_1_0_n_n_0_1_14096_wf : GatherDims.WF S16384x4096 S8192x1 S8192x4096 [1] [0] [] [0] [] 1 ![1, 4096]
  dot_S1024x4096_S512x4096_S1024x512_1_1_0_0_n_n_wf : DotDims.WF S1024x4096 S512x4096 S1024x512 [1] [1] [0] [0] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x8192.size a
  hwx0_2 : ∀ i : grid0.Coords, EltTy.bits .bf16 = 32 ∨ (Rect.block (s := S4096x8192) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x8192.size a
  hwx1_0 : ∀ i : grid1.Coords, EltTy.bits .bf16 = 32 ∨ (Rect.block (s := S4096x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x4096.size a
  hwx1_1 : ∀ i : grid1.Coords, EltTy.bits .bf16 = 32 ∨ (Rect.block (s := S8192x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x4096.size a
  hwx1_2 : ∀ i : grid1.Coords, EltTy.bits .f32 = 32 ∨ (Rect.block (s := S4096x4096) S1024x512.size (cc1_transform_2 i) (hinb1_2 i)).WholeWords (EltTy.packing .f32)

variable [Facts₀]

def gather_S16384x4096_S8192x1_S8192x4096_1_0_n_n_0_1_14096 : GatherDims S16384x4096 S8192x1 S8192x4096 where
  offsetDims := [1]
  collapsedSliceDims := [0]
  operandBatchingDims := []
  startIndicesBatchingDims := []
  startIndexMap := [0]
  indexVectorDim := 1
  sliceSizes := ![1, 4096]
  wf := gather_S16384x4096_S8192x1_S8192x4096_1_0_n_n_0_1_14096_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v5) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S8192 : Shape := ⟨1, ![8192]⟩
abbrev S16384x4096 : Shape := ⟨2, ![16384, 4096]⟩
abbrev S4096x16384 : Shape := ⟨2, ![4096, 16384]⟩
abbrev S_ : Shape := ⟨0, ![]⟩
abbrev S8192x1 : Shape := ⟨2, ![8192, 1]⟩
abbrev S8192x4096 : Shape := ⟨2, ![8192, 4096]⟩
abbrev S4096x8192 : Shape := ⟨2, ![4096, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8192, .i32⟩
  | .hbm, ⟨2, _⟩ => ⟨S16384x4096, .f32⟩
  | .hbm, ⟨3, _⟩ => ⟨S4096x16384, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192x4096, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S4096x8192, .f32⟩
  | .hbm, ⟨22, _⟩ => ⟨S4096x8192, .f32⟩
  | .hbm, ⟨23, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  gather_S16384x4096_S8192x1_S8192x4096_1_0_n_n_0_1_14096_wf : GatherDims.WF S16384x4096 S8192x1 S8192x4096 [1] [0] [] [0] [] 1 ![1, 4096]
  gather_S4096x16384_S8192x1_S4096x8192_0_1_n_n_1_1_40961_wf : GatherDims.WF S4096x16384 S8192x1 S4096x8192 [0] [1] [] [1] [] 1 ![4096, 1]
  dot_S4096x4096_S8192x4096_S4096x8192_1_1_0_0_n_n_wf : DotDims.WF S4096x4096 S8192x4096 S4096x8192 [1] [1] [0] [0] [] []
  dot_S4096x8192_S4096x8192_S4096x4096_1_1_0_0_n_n_wf : DotDims.WF S4096x8192 S4096x8192 S4096x4096 [1] [1] [0] [0] [] []

variable [Facts₀]

def gather_S16384x4096_S8192x1_S8192x4096_1_0_n_n_0_1_14096 : GatherDims S16384x4096 S8192x1 S8192x4096 where
  offsetDims := [1]
  collapsedSliceDims := [0]
  operandBatchingDims := []
  startIndicesBatchingDims := []
  startIndexMap := [0]
  indexVectorDim := 1
  sliceSizes := ![1, 4096]
  wf := gather_S16384x4096_S8192x1_S8192x4096_1_0_n_n_0_1_14096_wf
def gather_S4096x16384_S8192x1_S4096x8192_0_1_n_n_1_1_40961 : GatherDims S4096x16384 S8192x1 S4096x8192 where
  offsetDims := [0]
  collapsedSliceDims := [1]
  operandBatchingDims := []
  startIndicesBatchingDims := []
  startIndexMap := [1]
  indexVectorDim := 1
  sliceSizes := ![4096, 1]
  wf := gather_S4096x16384_S8192x1_S4096x8192_0_1_n_n_1_1_40961_wf
def dot_S4096x4096_S8192x4096_S4096x8192_1_1_0_0_n_n : DotDims S4096x4096 S8192x4096 S4096x8192 where
  lhsContracting := [1]
  rhsContracting := [1]
  lhsNonContracting := [0]
  rhsNonContracting := [0]
  lhsBatch := []
  rhsBatch := []
  wf := dot_S4096x4096_S8192x4096_S4096x8192_1_1_0_0_n_n_wf
def dot_S4096x8192_S4096x8192_S4096x4096_1_1_0_0_n_n : DotDims S4096x8192 S4096x8192 S4096x4096 where
  lhsContracting := [1]
  rhsContracting := [1]
  lhsNonContracting := [0]
  rhsNonContracting := [0]
  lhsBatch := []
  rhsBatch := []
  wf := dot_S4096x8192_S4096x8192_S4096x4096_1_1_0_0_n_n_wf

class Facts : Prop extends Facts₀ where

variable [Facts]
-- ==== Proof.KRegion0.lean ====
import proofs.«424474_j74629351735482_3_alg».proof.Proof.Gen.Kernel.Launch
import proofs.«424474_j74629351735482_3_alg».proof.Proof.Gen.Kernel.Skeleton
import proofs.«424474_j74629351735482_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first matmul call (x · w1ᵀ), one grid point at a time

The first call multiplies the activations x (4096 × 4096, bf16) by the transposed gathered weight rows
w1 (8192 × 4096, bf16) into a 4096 × 8192 bf16 array, on a 4 × 16 grid. Grid point (i, j) sees rows
1024·i … of x (a 1024 × 4096 block), rows 512·j … of w1 (a 512 × 4096 block), and owns the
1024 × 512 block (i, j) of the product. Its body reads both input blocks whole, contracts them along
their common axis of length 4096 starting from zero, rounds to bf16 and overwrites the whole output block:
nothing of the output block's earlier contents survives, and the input blocks are left as they were.

Everything here is stated at arbitrary contents V of the core's buffers on entry to the call, and for
every float family, so that it serves the exact and the word-level reading of the program alike. -/

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the first call is entered
variable (V : (c : Dev nD) → (b : Ref sig .tc) → Buf (Elt F) ((c : Thread nD τ).loc b))

/-! ## The blocks a grid point sees -/

/-- The block of window w at grid point t, cut out of that window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x block is in its current staging buffer at every point, whether it was fetched there or is
    still resident from an earlier point of the same grid row: the body never changes it. -/
theorem xblock_resident {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Likewise the block of weight rows. -/
theorem wblock_resident {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rA0 : Rect S1024x4096 := Rect.unit (s := S1024x4096) ![0, 0] S1024x4096.size inb_S1024x4096_S1024x4096_0_0
abbrev rB0 : Rect S512x4096 := Rect.unit (s := S512x4096) ![0, 0] S512x4096.size inb_S512x4096_S512x4096_0_0
abbrev rO0 : Rect S1024x512 := Rect.unit (s := S1024x512) ![0, 0] S1024x512.size inb_S1024x512_S1024x512_0_0

/-! ## What the body leaves in the output block -/

/-- The output block after the body, as a function of the two input blocks: one whole-block store of the
    rounded product of the two blocks. -/
def out0_2 (x0 : Vec F S1024x4096 .bf16) (x1 : Vec F S512x4096 .bf16) : Vec F S1024x512 .bf16 :=
  View.canon [⟨rO0, k0_pay1 (View.ld x0 rA0) (View.ld x1 rB0)⟩]

/-- The one store covers the whole block. -/
theorem store_covers_block (p0 : Vec F S1024x512 .bf16) (y : S1024x512.Idx) :
    ∃ pc ∈ ([⟨rO0, p0⟩] : List (View.Piece (Elt F) S1024x512 .bf16)), y ∈ pc.1.set :=
  View.cover_of_tiled [⟨rO0, p0⟩] S1024x512.size (by rfl) y

/-! ## The body's triple -/

set_option maxHeartbeats 1000000 in
/-- The body on three whole staging buffers, the two inputs at contents x0, x1 and the output at
    anything, ends with the inputs as they were and the output at out0_2 x0 x1. -/
theorem sound_kernel0 (c : Dev nD) (E : Set ℕ) (i : grid0.Coords)
    (arg2 : Memref sig .tc .vmem S1024x4096 .bf16) (harg2 : arg2.IsWhole)
    (arg3 : Memref sig .tc .vmem S512x4096 .bf16) (harg3 : arg3.IsWhole)
    (arg4 : Memref sig .tc .vmem S1024x512 .bf16) (harg4 : arg4.IsWhole)
    (x0 : Vec F S1024x4096 .bf16) (x1 : Vec F S512x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_nt_kernel i arg2 harg2 arg3 harg3 arg4 harg4) K := by
  simp only [cc0__matmul_nt_kernel_eq_skeleton]; unfold cc0__matmul_nt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers_block _)

/-! ## The call's proof data -/

/-- Per core: the three arrays as the call finds them; after the body at point t the two input
    buffers still hold their blocks and the output buffer holds the rounded product of the two blocks;
    the rest of the core's scoped memory and its generator register pass through untouched; nothing is
    owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  xblock_resident V (dat0 V c) (A_eq0 V c 0) (after0_0 V c) t d
theorem before0_1 (c : Dev nD) (t : Fin cfg0.N) (d) : (dat0 V c).before 1 t d = iblk0 V c 1 t :=
  wblock_resident V (dat0 V c) (A_eq0 V c 1) (after0_1 V c) t d

/-! ## The body obligation, at a generic point -/

/-- What the body is entered with at point t: the invariant, the core's debts, and the three current
    staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both input buffers hold their blocks, so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Base.lean ====
/- The second matmul region (out = h · w2g, the contraction split in four steps k = 0..3 over a carried
   f32 accumulator): what its three control cases share. The grid is 4 x 8 x 4, the last coordinate k the
   fastest, so k = t mod 4 at point t. At k = 0 the accumulator is reset to zero before the step's product is
   added; at k = 1, 2 the product is added to what the step before left; at k = 3 the product is added and the
   accumulator is copied whole into the output block, which only then is written back. Here: the input blocks
   read off the arrays the region finds, the two conditions in closed form over the grid, where the output
   window is idle, and the names of the buffers the body is called with. -/
import proofs.«424474_j74629351735482_3_alg».proof.Proof.Gen.Kernel.Launch
import proofs.«424474_j74629351735482_3_alg».proof.Proof.Gen.Kernel.Skeleton
import proofs.«424474_j74629351735482_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the region is entered with -/

section Blocks

variable (V : (c : Dev nD) → (b : Ref sig .tc) → Buf (Elt F) ((c : Thread nD τ).loc b))

/-- Window `w`'s block at point `t`, read off its array as the region finds it: for the left operand the
    1024 x 2048 tile (i, k) of h, for the right operand the 2048 x 512 tile (k, j) of w2g. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its tile at every point, for any proof data whose array is `V`'s and
    whose body leaves the tile in place: an input is never idle and its blocks are not cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions of the body -/

/-- "This is the first contraction step" (k = 0), as the body computes it from the third grid coordinate. -/
abbrev cond1_0 (i : grid1.Coords) : Prop := (Scalar.cmpi .ne (Scalar.extui (Scalar.cmpi .eq (BitVec.ofNat 32 (i 2).val) 0#32)) 0#32) = 1#1
/-- It holds exactly at the points t with t mod 4 = 0 (k is the fastest coordinate of the 4 x 8 x 4 grid). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last contraction step" (k = 3). -/
abbrev cond1_1 (i : grid1.Coords) : Prop := k1_cond2 i = 1#1
/-- It holds exactly at the points t with t mod 4 = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The operands are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At a first step (k = 0) nothing is stored into the output block: the window is idle, -/
theorem idleAt1_2_A : ∀ t : Fin cfg1.N, cond1_0 (grid1.coords t) → ¬cond1_1 (grid1.coords t) → cfg1.idle 2 (grid1.coords t) = true := by decide +kernel
/-- and the block is not written back there. -/
theorem noFlush1_2_A : ∀ t : Fin cfg1.N, cond1_0 (grid1.coords t) → ¬cond1_1 (grid1.coords t) → (cfg1.win 2).flush t = false := by decide +kernel
/-- The same at a middle step (k = 1, 2). -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At a last step (k = 3) the accumulator is stored into the output block: the window is live. -/
theorem liveAt1_2_C : ∀ t : Fin cfg1.N, ¬cond1_0 (grid1.coords t) → cond1_1 (grid1.coords t) → cfg1.idle 2 (grid1.coords t) = false := by decide +kernel

/-! ## The buffers the body is called with -/

/-- One staging buffer of the output window, through which its contents are stated (which one does not matter:
    the contents are those of pieces that cover the block). -/
abbrev VO1_2 : View sig .tc .vmem S1024x512 .f32 := (Memref.whole cc1_stg2_0 : Memref sig .tc .vmem S1024x512 .f32).view
/-- Each window's current staging buffer at point `t`, spelled as the pipeline passes it, and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The accumulator: a whole buffer of the kernel's own, passed beside the windows and carried from point to point. -/
abbrev scM1_0 : Memref sig .tc .vmem S1024x512 .f32 := Memref.whole cc1_scratch0
/-- The accumulator as a view: what it holds is stated through it. -/
abbrev VS1_0 : View sig .tc .vmem S1024x512 .f32 := scM1_0.view

/-- What the launch hands this region beside its windows: the first region's six staging buffers, each whole at
    some contents, the accumulator owned at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KRegion1RunA.lean ====
/- The second matmul region, a first contraction step (k = 0): the whole body run on any whole buffers, the pieces its
   stores leave in the accumulator (and, at a last step, in the output block) found by running it. -/
import proofs.«424474_j74629351735482_3_alg».proof.Proof.KRegion1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST STEP (k = 0: the reset is taken, the copy-out is not). On whole buffers — the operands' tiles at `x0`, `x1`, the
    output block at contents `xi2` that are handed back untouched (nothing is stored there), the accumulator at anything —
    the body runs to the continuation holding the operands as they were, the output block as it was, and the accumulator
    with the pieces `LS0` written (last first): the zero fill, then the zero fill read back plus the product of the tiles. -/
noncomputable def kernelRun1_A (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .bf16) (x1 : Vec F S2048x512 .bf16) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_nn_acc_kernel i arg3 harg3 arg4 harg4 arg5 harg5 arg6 harg6) K } := by
  refine ⟨[], ?_, fun xi2 E K => ?run⟩
  case run =>
    simp only [cc1__matmul_nn_acc_kernel_eq_skeleton]; unfold cc1__matmul_nn_acc_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KRegion1RunB.lean ====
/- The second matmul region, a middle contraction step (k = 1, 2): the whole body run on any whole buffers, the pieces its
   stores leave in the accumulator (and, at a last step, in the output block) found by running it. -/
import proofs.«424474_j74629351735482_3_alg».proof.Proof.KRegion1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- MIDDLE STEP (k = 1, 2: neither the reset nor the copy-out is taken). On whole buffers — the operands' tiles at `x0`,
    `x1`, the output block at contents `xi2` handed back untouched, the accumulator at the contents `xs0` the step before
    left — the body runs to the continuation holding the operands and the output block as they were and the accumulator
    with the piece `LS0` written: `xs0` plus the product of the tiles. -/
noncomputable def kernelRun1_B (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .bf16) (x1 : Vec F S2048x512 .bf16) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_nn_acc_kernel i arg3 harg3 arg4 harg4 arg5 harg5 arg6 harg6) K } := by
  refine ⟨[], ?_, fun xi2 E K => ?run⟩
  case run =>
    simp only [cc1__matmul_nn_acc_kernel_eq_skeleton]; unfold cc1__matmul_nn_acc_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KRegion1RunC.lean ====
/- The second matmul region, a last contraction step (k = 3): the whole body run on any whole buffers, the pieces its
   stores leave in the accumulator (and, at a last step, in the output block) found by running it. -/
import proofs.«424474_j74629351735482_3_alg».proof.Proof.KRegion1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- LAST STEP (k = 3: the reset is not taken, the copy-out is). On whole buffers — the operands' tiles at `x0`, `x1`, the
    output block at anything, the accumulator at the contents `xs0` the step before left — the body runs to the
    continuation holding the operands as they were, the accumulator with the piece `LS0` written (`xs0` plus the product of
    the tiles) and the output block with the piece `L2` written: the accumulator read back whole. -/
noncomputable def kernelRun1_C (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_nn_acc_kernel i arg3 harg3 arg4 harg4 arg5 harg5 arg6 harg6) K } := by
  refine ⟨?_, ?_, fun E K => ?run⟩
  case run =>
    simp only [cc1__matmul_nn_acc_kernel_eq_skeleton]; unfold cc1__matmul_nn_acc_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KRegion1.lean ====
/- The second matmul region (out = h · w2g with the contraction split in four steps over a carried f32
   accumulator), stated at the contents `V` the region is entered with: what each of the three control cases
   leaves in the accumulator and in the output block, those contents point by point along the grid
   (`outsAt1`), the region's invariant (the accumulator at what the point before left), the pipeline's proof
   data and the body obligation at every grid point. -/
import proofs.«424474_j74629351735482_3_alg».proof.Proof.KRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A first step stores nothing into the output block (idle there, not written back): no pieces, a placeholder that
    nothing consults. -/
def out1_A_2 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .bf16) (x1 : Vec F S2048x512 .bf16) : Vec F S1024x512 .f32 :=
  VO1_2.read (Elt F) (VO1_2.writes (Elt F) VO1_2.junk (kernelRun1_A c i arg3 harg3 arg4 harg4 arg5 harg5 arg6 harg6 hc0 hc1 x0 x1).1)

/-- A first step's two stores into the accumulator (the zero fill, then the sum) each cover it whole. -/
theorem scover1_A_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .bf16) (x1 : Vec F S2048x512 .bf16) (y : S1024x512.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x512.size (by sl_kernel_rfl) y

/-- What a first step leaves in the accumulator: its pieces read back. -/
def sout1_A_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .bf16) (x1 : Vec F S2048x512 .bf16) : Vec F S1024x512 .f32 :=
  VS1_0.read (Elt F) (VS1_0.writes (Elt F) VS1_0.junk (kernelRun1_A c i arg3 harg3 arg4 harg4 arg5 harg5 arg6 harg6 hc0 hc1 x0 x1).2.1)

/-- A middle step stores nothing into the output block either: a placeholder that nothing consults. -/
def out1_B_2 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .bf16) (x1 : Vec F S2048x512 .bf16) (xs0 : Vec F S1024x512 .f32) : Vec F S1024x512 .f32 :=
  VO1_2.read (Elt F) (VO1_2.writes (Elt F) VO1_2.junk (kernelRun1_B c i arg3 harg3 arg4 harg4 arg5 harg5 arg6 harg6 hc0 hc1 x0 x1 xs0).1)

/-- A middle step's one store into the accumulator covers it whole. -/
theorem scover1_B_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .bf16) (x1 : Vec F S2048x512 .bf16) (xs0 : Vec F S1024x512 .f32) (y : S1024x512.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x512.size (by sl_kernel_rfl) y

/-- What a middle step leaves in the accumulator: its piece read back. -/
def sout1_B_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .bf16) (x1 : Vec F S2048x512 .bf16) (xs0 : Vec F S1024x512 .f32) : Vec F S1024x512 .f32 :=
  VS1_0.read (Elt F) (VS1_0.writes (Elt F) VS1_0.junk (kernelRun1_B c i arg3 harg3 arg4 harg4 arg5 harg5 arg6 harg6 hc0 hc1 x0 x1 xs0).2.1)

/-- A last step's store into the output block covers it whole. -/
theorem cover1_C_2 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) (y : S1024x512.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x512.size (by sl_kernel_rfl) y

/-- What a last step leaves in the output block: its piece read back. -/
def out1_C_2 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) : Vec F S1024x512 .f32 :=
  VO1_2.read (Elt F) (VO1_2.writes (Elt F) VO1_2.junk (kernelRun1_C c i arg3 harg3 arg4 harg4 arg5 harg5 arg6 harg6 hc0 hc1 x0 x1 xs0).1)

/-- A last step's one store into the accumulator covers it whole. -/
theorem scover1_C_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) (y : S1024x512.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x512.size (by sl_kernel_rfl) y

/-- What a last step leaves in the accumulator: its piece read back. -/
def sout1_C_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) : Vec F S1024x512 .f32 :=
  VS1_0.read (Elt F) (VS1_0.writes (Elt F) VS1_0.junk (kernelRun1_C c i arg3 harg3 arg4 harg4 arg5 harg5 arg6 harg6 hc0 hc1 x0 x1 xs0).2.1)

/-! ## What the accumulator and the output block hold after each point -/

section Region

variable (V : (c : Dev nD) → (b : Ref sig .tc) → Buf (Elt F) ((c : Thread nD τ).loc b))

/-- THE ACCUMULATION. The pair (output block, accumulator) after the body at position `n`: the case the closed forms
    select at `n` (k = n mod 4), run on the point's buffers and operand tiles; a middle or last step reads the accumulator
    at what position `n - 1` left in it (nothing touches it between two points), a first step covers it before reading.
    So after the step k of a group of four the accumulator holds the sum of the products of the tiles 0..k of the group,
    and after the last step the output block holds that sum too. The output component at a first or middle step is a
    placeholder: the window is idle there. k = 0 and k = 3 at once is no case. -/
def outsAt1 (c : Dev nD) : (n : ℕ) → n < cfg1.N → Vec F S1024x512 .f32 × Vec F S1024x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first step: that case's contents. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle step: that case's contents, over what the point before left in the accumulator. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last step: that case's contents, over what the point before left in the accumulator. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The first region's six staging buffers, each whole at some contents: this region never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the launch hands the region, with those six buffers bundled. -/
theorem PhiA1_split (c : Dev nD) :
    (Pipeline.ΦA spec1 c : sProp 𝕄)
      = iprop(iprop(rest1 (F := F) c ∗ (∃ d, owns (c : Thread nD τ) scM1_0 fullShare d)) ∗ (∃ r, prngReg c r)) := by
  rw [PhiA1_eq]; unfold rest1
  have h₁ : (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) : sProp 𝕄)
      ⊢ iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ d, owns (c : Thread nD τ) scM1_0 fullShare d)) ∗ (∃ r, prngReg c r)) := by
    iintro ⟨⟨Ha, Hb, Hc, Hd, He, Hf, HS⟩, Hg⟩
    isplitl [Ha Hb Hc Hd He Hf HS]
    · isplitl [Ha Hb Hc Hd He Hf]
      · isplitl [Ha]; · iexact Ha
        isplitl [Hb]; · iexact Hb
        isplitl [Hc]; · iexact Hc
        isplitl [Hd]; · iexact Hd
        isplitl [He]; · iexact He
        iexact Hf
      iexact HS
    iexact Hg
  have h₂ : (iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ d, owns (c : Thread nD τ) scM1_0 fullShare d)) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
    iintro ⟨⟨⟨Ha, Hb, Hc, Hd, He, Hf⟩, HS⟩, Hg⟩
    isplitl [Ha Hb Hc Hd He Hf HS]
    · isplitl [Ha]; · iexact Ha
      isplitl [Hb]; · iexact Hb
      isplitl [Hc]; · iexact Hc
      isplitl [Hd]; · iexact Hd
      isplitl [He]; · iexact He
      isplitl [Hf]; · iexact Hf
      iexact HS
    iexact Hg
  exact BI.equiv_iff.mp ⟨h₁, h₂⟩

/-- The region invariant before position `n`: before the first point what the launch hands over (the accumulator at
    anything); afterwards the same with the accumulator at what the point before left in it (`outsAt1`'s second component). -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(rest1 (F := F) c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this region on core `c`: the arrays as the region finds them (`V`); after the body at point `t`
    each operand's buffer at its tile and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each operand's current staging buffer holds its tile at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The operands' buffers hold their tiles; k = t mod 4 says which case the point is in. The
    invariant hands the body the accumulator at what the point before left (at anything before the very first point,
    and a first step does not care) and takes it back at this point's contents, which the case's pieces cover; at a
    first or middle step the output block goes back as it came, at a last step it comes back covered by the copy of
    the accumulator. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · -- a first step
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
        rw [outsAt1_A V c t h0 h1]
        unfold sout1_A_0; (try dsimp only)
        by_cases hz : t.val = 0
        · rw [PhiS1_castSucc V c t, PhiS1_zero V c _ _ hz, PhiA1_split]
          iintro ⟨⟨⟨Hr, HS0⟩, Hg⟩, Ho, ⟨%d0, H0⟩, ⟨%d1, H1⟩, ⟨%d2, H2⟩⟩
          iapply ((kernelRun1_A c (grid1.coords t) _ _ _ _ _ _ _ _ ((hcond1_0 t).mpr h0) (fun h => h1 ((hcond1_1 t).mp h)) (iblk1 V c 0 t) (iblk1 V c 1 t)).2.2 _ Set.univ _)
          isplitl [H0]; · iexact H0
          isplitl [H1]; · iexact H1
          isplitl [H2]; · iexact H2
          isplitl [HS0]; · iexact HS0
          iintro ⟨H0, H1, H2, ⟨%es0, HS0⟩⟩
          isplitl [Hr HS0 Hg]
          · isplitl [Hr HS0]
            · isplitl [Hr]; · iexact Hr
              unfold owns; iexists _; isplitr
              swap; · iexact HS0
              ipureintro; exact View.read_writes_of_cover _ _ _ _ _ (scover1_A_0 c _ _ _ _ _ _ _ _ _ _ _ _ _)
            iexact Hg
          isplitl [Ho]; · iexact Ho
          isplitl [H0]; · iexact H0
          isplitl [H1]; · iexact H1
          iexists _; iexact H2
        · rw [PhiS1_castSucc V c t, PhiS1_pos V c _ _ hz]
          iintro ⟨⟨⟨Hr, HS0⟩, Hg⟩, Ho, ⟨%d0, H0⟩, ⟨%d1, H1⟩, ⟨%d2, H2⟩⟩
          iapply ((kernelRun1_A c (grid1.coords t) _ _ _ _ _ _ _ _ ((hcond1_0 t).mpr h0) (fun h => h1 ((hcond1_1 t).mp h)) (iblk1 V c 0 t) (iblk1 V c 1 t)).2.2 _ Set.univ _)
          isplitl [H0]; · iexact H0
          isplitl [H1]; · iexact H1
          isplitl [H2]; · iexact H2
          isplitl [HS0]; · iexists _; iexact HS0
          iintro ⟨H0, H1, H2, ⟨%es0, HS0⟩⟩
          isplitl [Hr HS0 Hg]
          · isplitl [Hr HS0]
            · isplitl [Hr]; · iexact Hr
              unfold owns; iexists _; isplitr
              swap; · iexact HS0
              ipureintro; exact View.read_writes_of_cover _ _ _ _ _ (scover1_A_0 c _ _ _ _ _ _ _ _ _ _ _ _ _)
            iexact Hg
          isplitl [Ho]; · iexact Ho
          isplitl [H0]; · iexact H0
          isplitl [H1]; · iexact H1
          iexists _; iexact H2
  · by_cases h1 : t.val % 4 = 3
    · -- a last step
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2_C t (fun h => h0 ((hcond1_0 t).mp h)) ((hcond1_1 t).mpr h1)], after1_2]
        rw [outsAt1_C V c t h0 h1]
        unfold out1_C_2 sout1_C_0; (try dsimp only)
        by_cases hz : t.val = 0
        · exfalso; omega
        · rw [PhiS1_castSucc V c t, PhiS1_pos V c _ _ hz]
          iintro ⟨⟨⟨Hr, HS0⟩, Hg⟩, Ho, ⟨%d0, H0⟩, ⟨%d1, H1⟩, ⟨%d2, H2⟩⟩
          iapply ((kernelRun1_C c (grid1.coords t) _ _ _ _ _ _ _ _ (fun h => h0 ((hcond1_0 t).mp h)) ((hcond1_1 t).mpr h1) (iblk1 V c 0 t) (iblk1 V c 1 t) _).2.2 Set.univ _)
          isplitl [H0]; · iexact H0
          isplitl [H1]; · iexact H1
          isplitl [H2]; · iexists _; iexact H2
          isplitl [HS0]; · iexact HS0
          iintro ⟨H0, H1, ⟨%e2, H2⟩, ⟨%es0, HS0⟩⟩
          isplitl [Hr HS0 Hg]
          · isplitl [Hr HS0]
            · isplitl [Hr]; · iexact Hr
              unfold owns; iexists _; isplitr
              swap; · iexact HS0
              ipureintro; exact View.read_writes_of_cover _ _ _ _ _ (scover1_C_0 c _ _ _ _ _ _ _ _ _ _ _ _ _ _)
            iexact Hg
          isplitl [Ho]; · iexact Ho
          isplitl [H0]; · iexact H0
          isplitl [H1]; · iexact H1
          unfold owns; iexists _; isplitr
          swap; · iexact H2
          ipureintro; exact View.read_writes_of_cover _ _ _ _ _ (cover1_C_2 c _ _ _ _ _ _ _ _ _ _ _ _ _ _)
    · -- a middle step
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
        rw [outsAt1_B V c t h0 h1]
        unfold sout1_B_0; (try dsimp only)
        by_cases hz : t.val = 0
        · exfalso; omega
        · rw [PhiS1_castSucc V c t, PhiS1_pos V c _ _ hz]
          iintro ⟨⟨⟨Hr, HS0⟩, Hg⟩, Ho, ⟨%d0, H0⟩, ⟨%d1, H1⟩, ⟨%d2, H2⟩⟩
          iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
          isplitl [H0]; · iexact H0
          isplitl [H1]; · iexact H1
          isplitl [H2]; · iexact H2
          isplitl [HS0]; · iexact HS0
          iintro ⟨H0, H1, H2, ⟨%es0, HS0⟩⟩
          isplitl [Hr HS0 Hg]
          · isplitl [Hr HS0]
            · isplitl [Hr]; · iexact Hr
              unfold owns; iexists _; isplitr
              swap; · iexact HS0
              ipureintro; exact View.read_writes_of_cover _ _ _ _ _ (scover1_B_0 c _ _ _ _ _ _ _ _ _ _ _ _ _ _)
            iexact Hg
          isplitl [Ho]; · iexact Ho
          isplitl [H0]; · iexact H0
          isplitl [H1]; · iexact H1
          iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_split]
  iintro ⟨⟨Hr, HS0⟩, Hg⟩
  isplitl [Hr HS0]
  · isplitl [Hr]; · iexact Hr
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region

end Cert.Kernel.Hand

end
-- ==== Proof.KRun.lean ====
import proofs.«424474_j74629351735482_3_alg».proof.Proof.KRegion0
import proofs.«424474_j74629351735482_3_alg».proof.Proof.KRegion1
import proofs.«424474_j74629351735482_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole program run: four host stretches, then the two matmul calls

The program first prepares its operands on the host (the wrapped indices, the gathered and rounded weight rows,
the rounded activations: four stretches of host operations), then runs the first matmul call, which fills the
intermediate array h, then the second, which reads h and fills the result. Between any two of these six steps
the core holds every unscoped buffer at known contents: the launch memory, then what each host stretch computes,
then — after a call — the same with that call's arrays at what its write-backs leave. The run is assembled from
one record per step; at the end the result array holds what the second call's write-backs leave, and no step has
written an argument array.

Stated for every float family, so that it serves the exact and the word-level reading of the program alike. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the steps -/

/-- After the four host stretches: what the first call finds. -/
abbrev B4 : Dev nD → Valuation τ sig (Elt F) := fun c => Gen.V4 m c
/-- The same, read at the TensorCore's references. -/
abbrev E0 : (c : Dev nD) → (b : Ref sig .tc) → Buf (Elt F) ((c : Thread nD τ).loc b) := fun c b => B4 m c b

/-- After the first call: its arrays at what its write-backs leave (the two inputs as found, h block by block),
    every other buffer as before. -/
def B5 (c : Dev nD) : Valuation τ sig (Elt F) :=
  Pipeline.withArrays spec0 c (B4 m c) fun w => (dat0 (E0 m) c).arrAt w cfg0.N
theorem B5_arr (c : Dev nD) (w : Fin cfg0.W) :
    B5 m c (Proc.devRef .tc (Pipeline.arrRef spec0 w)) = (dat0 (E0 m) c).arrAt w cfg0.N := by
  unfold B5; exact Pipeline.withArrays_arr spec0 launch0.win.arr_inj c _ _ w
theorem B5_of_ne (c : Dev nD) (b : Ref sig .tc) (hb : ∀ w, Pipeline.arrRef spec0 w ≠ b) :
    B5 m c (Proc.devRef .tc b) = B4 m c (Proc.devRef .tc b) := by
  unfold B5; exact Pipeline.withArrays_of_ne spec0 c _ _ b hb
/-- What the second call finds. -/
abbrev E1 : (c : Dev nD) → (b : Ref sig .tc) → Buf (Elt F) ((c : Thread nD τ).loc b) := fun c b => B5 m c b
theorem left0 (c : Dev nD) (w : Fin cfg0.W) : (dat0 (E0 m) c).arrAt w cfg0.N = E1 m c (Pipeline.arrRef spec0 w) :=
  (B5_arr m c w).symm
theorem kept0 (c : Dev nD) : ∀ b, b ∉ Finset.univ.image (Pipeline.arrRef spec0) → E1 m c b = E0 m c b :=
  fun b hb => B5_of_ne m c b fun w e => hb (Finset.mem_image.mpr ⟨w, Finset.mem_univ _, e⟩)

/-- After the second call: its arrays at what its write-backs leave (h and the gathered columns as found, the
    result block by block), every other buffer as before. -/
def B6 (c : Dev nD) : Valuation τ sig (Elt F) :=
  Pipeline.withArrays spec1 c (B5 m c) fun w => (dat1 (E1 m) c).arrAt w cfg1.N
theorem B6_arr (c : Dev nD) (w : Fin cfg1.W) :
    B6 m c (Proc.devRef .tc (Pipeline.arrRef spec1 w)) = (dat1 (E1 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E2 : (c : Dev nD) → (b : Ref sig .tc) → Buf (Elt F) ((c : Thread nD τ).loc b) := fun c b => B6 m c b
theorem left1 (c : Dev nD) (w : Fin cfg1.W) : (dat1 (E1 m) c).arrAt w cfg1.N = E2 m c (Pipeline.arrRef spec1 w) :=
  (B6_arr m c w).symm
theorem kept1 (c : Dev nD) : ∀ b, b ∉ Finset.univ.image (Pipeline.arrRef spec1) → E2 m c b = E1 m c b :=
  fun b hb => B6_of_ne m c b fun w e => hb (Finset.mem_image.mpr ⟨w, Finset.mem_univ _, e⟩)

/-! ### No step writes an argument array -/

theorem B6_main_arg0 (c : Dev nD) : B6 m c (Proc.devRef .tc main_arg0) = m ((c : Thread nD τ).loc main_arg0) :=
  (B6_of_ne m c main_arg0 (by decide)).trans <| (B5_of_ne m c main_arg0 (by decide)).trans <|
    (V4_of m c main_arg0 (by decide)).trans <| (V3_of m c main_arg0 (by decide)).trans <|
    (V2_of m c main_arg0 (by decide)).trans <| (V1_of m c main_arg0 (by decide)).trans rfl
theorem B6_main_arg1 (c : Dev nD) : B6 m c (Proc.devRef .tc main_arg1) = m ((c : Thread nD τ).loc main_arg1) :=
  (B6_of_ne m c main_arg1 (by decide)).trans <| (B5_of_ne m c main_arg1 (by decide)).trans <|
    (V4_of m c main_arg1 (by decide)).trans <| (V3_of m c main_arg1 (by decide)).trans <|
    (V2_of m c main_arg1 (by decide)).trans <| (V1_of m c main_arg1 (by decide)).trans rfl
theorem B6_main_arg2 (c : Dev nD) : B6 m c (Proc.devRef .tc main_arg2) = m ((c : Thread nD τ).loc main_arg2) :=
  (B6_of_ne m c main_arg2 (by decide)).trans <| (B5_of_ne m c main_arg2 (by decide)).trans <|
    (V4_of m c main_arg2 (by decide)).trans <| (V3_of m c main_arg2 (by decide)).trans <|
    (V2_of m c main_arg2 (by decide)).trans <| (V1_of m c main_arg2 (by decide)).trans rfl
theorem B6_main_arg3 (c : Dev nD) : B6 m c (Proc.devRef .tc main_arg3) = m ((c : Thread nD τ).loc main_arg3) :=
  (B6_of_ne m c main_arg3 (by decide)).trans <| (B5_of_ne m c main_arg3 (by decide)).trans <|
    (V4_of m c main_arg3 (by decide)).trans <| (V3_of m c main_arg3 (by decide)).trans <|
    (V2_of m c main_arg3 (by decide)).trans <| (V1_of m c main_arg3 (by decide)).trans rfl

/-- The second call does not touch the gathered columns it reads: they are as the host left them. -/
theorem E1_main_v4 (c : Dev nD) : E1 m c main_v4 = E0 m c main_v4 := B5_of_ne m c main_v4 (by decide)
/-- The intermediate array h, as the second call finds it, is what the first call's write-backs leave. -/
theorem E1_main_v6 (c : Dev nD) : E1 m c main_v6 = (dat0 (E0 m) c).arrAt 2 cfg0.N := B5_arr m c 2

/-! ## The proof data of the two calls, and what rides along -/

/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything. -/
abbrev L : GSem nD τ sig → Finset Unit := fun _ => ∅
abbrev lv : GSem nD τ sig → Unit → ℕ := fun _ _ => 0
/-- Beside the buffers every step carries the core's generator register at some state and its dues, at nothing. -/
abbrev R (c : Dev nD) : sProp 𝕄 := iprop((∃ r, prngReg c r) ∗ ∃ W, owes (c : Thread nD τ) (0 : CellTallies nD τ sig Unit) W)
/-- A host stretch as a step, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues: every unscoped buffer at the last contents, the generator register at some state. -/
abbrev Tₙ (c : Dev nD) : sProp 𝕄 := iprop(StableHlo.held (c : Thread nD τ) (Pipeline.ucRefs τ sig) (B6 m c) ∗ ∃ r, prngReg c r)

/-! ## The two calls as steps -/

set_option backward.isDefEq.respectTransparency.types false in
/-- The first call: entered from every unscoped buffer at the contents after the host stretches, left at those
    contents with h filled. Its three arrays are split out of the unscoped buffers on entry and put back on exit; the
    generator register passes through its invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from the contents the first call leaves, left with the result array filled. Its
    invariant starts as the class's (every scoped buffer no window stages at anything, the generator register at some
    state), names the accumulator's contents from the first point on, and forgets them again at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E1 m) c).Φ 0 from rfl]
    refine BIBase.Entails.trans ?_ (hin1 (E1 m) c)
    unfold Pipeline.ΦA
    iintro ⟨Hp, -, Hr⟩
    isplitl [Hr]; · iexact Hr
    iexact Hp
  hout c := by
    rw [Pipeline.ownSems0_none, show (pdats m 1 c).Φ (Fin.last _) = (dat1 (E1 m) c).Φ (Fin.last cfg1.N) from rfl]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six steps, and the run -/

abbrev segs : List (Pipeline.Seg (pcfgs (F := F)) adm (pdats m) () defs₀ 𝒱₀ L lv) :=
  [ .host (hseg hostOps0 hostOps0_sub hostOps0_fresh (fun c => Gen.V0 m c)),
    .host (hseg hostOps0_1 hostOps0_1_sub hostOps0_1_fresh (fun c => Gen.V1 m c)),
    .host (hseg hostOps0_2 hostOps0_2_sub hostOps0_2_fresh (fun c => Gen.V2 m c)),
    .host (hseg hostOps0_3 hostOps0_3_sub hostOps0_3_fresh (fun c => Gen.V3 m c)),
    .region (reg0 m),
    .region (reg1 m) ]

/-- The program is the run of its steps. -/
theorem main_run (c : Dev nD) : main (F := F) c = Pipeline.Seg.run (segs m) := (main_chain c).trans (by chain_rfl)

set_option backward.isDefEq.respectTransparency.types false in
/-- From any memory with zero counters every weakly fair execution of the program on the TensorCores terminates,
    nothing faulting; at the end the result array holds what the second call's write-backs leave, and every
    argument array is as launched. -/
theorem run_main : θ_run defs (onTc (τ := τ) (main (F := F))) ⟨m, fun _ => 0, ρ⟩ (fun r => ∀ c : Dev nD,
      r.2.mem ((c.tc : Thread nD τ).loc main_v7) = (dat1 (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c =>
      ⟨(h c _ (mem_uc main_v7 (by decide))).trans (B6_arr m c 2),
       (h c _ (mem_uc main_arg0 (by decide))).trans (B6_main_arg0 m c),
       (h c _ (mem_uc main_arg1 (by decide))).trans (B6_main_arg1 m c),
       (h c _ (mem_uc main_arg2 (by decide))).trans (B6_main_arg2 m c),
       (h c _ (mem_uc main_arg3 (by decide))).trans (B6_main_arg3 m c)⟩)

end Cert.Kernel.Hand

end
-- ==== Proof.KIRegion0.lean ====
import proofs.«424474_j74629351735482_3_alg».proof.Proof.Gen.KernelIdeal.Launch
import proofs.«424474_j74629351735482_3_alg».proof.Proof.Gen.KernelIdeal.Skeleton
import proofs.«424474_j74629351735482_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first matmul call (x · w1ᵀ), one grid point at a time

The first call multiplies the activations x (4096 × 4096, bf16) by the transposed gathered weight rows
w1 (8192 × 4096, bf16) into a 4096 × 8192 bf16 array, on a 4 × 16 grid. Grid point (i, j) sees rows
1024·i … of x (a 1024 × 4096 block), rows 512·j … of w1 (a 512 × 4096 block), and owns the
1024 × 512 block (i, j) of the product. Its body reads both input blocks whole, contracts them along
their common axis of length 4096 starting from zero, rounds to bf16 and overwrites the whole output block:
nothing of the output block's earlier contents survives, and the input blocks are left as they were.

Everything here is stated at arbitrary contents V of the core's buffers on entry to the call, and for
every float family, so that it serves the exact and the word-level reading of the program alike. -/

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the first call is entered
variable (V : (c : Dev nD) → (b : Ref sig .tc) → Buf (Elt F) ((c : Thread nD τ).loc b))

/-! ## The blocks a grid point sees -/

/-- The block of window w at grid point t, cut out of that window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x block is in its current staging buffer at every point, whether it was fetched there or is
    still resident from an earlier point of the same grid row: the body never changes it. -/
theorem xblock_resident {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Likewise the block of weight rows. -/
theorem wblock_resident {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rA0 : Rect S1024x4096 := Rect.unit (s := S1024x4096) ![0, 0] S1024x4096.size inb_S1024x4096_S1024x4096_0_0
abbrev rB0 : Rect S512x4096 := Rect.unit (s := S512x4096) ![0, 0] S512x4096.size inb_S512x4096_S512x4096_0_0
abbrev rO0 : Rect S1024x512 := Rect.unit (s := S1024x512) ![0, 0] S1024x512.size inb_S1024x512_S1024x512_0_0

/-! ## What the body leaves in the output block -/

/-- The output block after the body, as a function of the two input blocks: one whole-block store of the
    rounded product of the two blocks. -/
def out0_2 (x0 : Vec F S1024x4096 .bf16) (x1 : Vec F S512x4096 .bf16) : Vec F S1024x512 .bf16 :=
  View.canon [⟨rO0, k0_pay1 (View.ld x0 rA0) (View.ld x1 rB0)⟩]

/-- The one store covers the whole block. -/
theorem store_covers_block (p0 : Vec F S1024x512 .bf16) (y : S1024x512.Idx) :
    ∃ pc ∈ ([⟨rO0, p0⟩] : List (View.Piece (Elt F) S1024x512 .bf16)), y ∈ pc.1.set :=
  View.cover_of_tiled [⟨rO0, p0⟩] S1024x512.size (by rfl) y

/-! ## The body's triple -/

set_option maxHeartbeats 1000000 in
/-- The body on three whole staging buffers, the two inputs at contents x0, x1 and the output at
    anything, ends with the inputs as they were and the output at out0_2 x0 x1. -/
theorem sound_kernel0 (c : Dev nD) (E : Set ℕ) (i : grid0.Coords)
    (arg2 : Memref sig .tc .vmem S1024x4096 .bf16) (harg2 : arg2.IsWhole)
    (arg3 : Memref sig .tc .vmem S512x4096 .bf16) (harg3 : arg3.IsWhole)
    (arg4 : Memref sig .tc .vmem S1024x512 .bf16) (harg4 : arg4.IsWhole)
    (x0 : Vec F S1024x4096 .bf16) (x1 : Vec F S512x4096 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_nt_kernel i arg2 harg2 arg3 harg3 arg4 harg4) K := by
  simp only [cc0__matmul_nt_kernel_eq_skeleton]; unfold cc0__matmul_nt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers_block _)

/-! ## The call's proof data -/

/-- Per core: the three arrays as the call finds them; after the body at point t the two input
    buffers still hold their blocks and the output buffer holds the rounded product of the two blocks;
    the rest of the core's scoped memory and its generator register pass through untouched; nothing is
    owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  xblock_resident V (dat0 V c) (A_eq0 V c 0) (after0_0 V c) t d
theorem before0_1 (c : Dev nD) (t : Fin cfg0.N) (d) : (dat0 V c).before 1 t d = iblk0 V c 1 t :=
  wblock_resident V (dat0 V c) (A_eq0 V c 1) (after0_1 V c) t d

/-! ## The body obligation, at a generic point -/

/-- What the body is entered with at point t: the invariant, the core's debts, and the three current
    staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both input buffers hold their blocks, so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Base.lean ====
/- The second matmul region (out = h · w2g, the contraction split in four steps k = 0..3 over a carried
   f32 accumulator): what its three control cases share. The grid is 4 x 8 x 4, the last coordinate k the
   fastest, so k = t mod 4 at point t. At k = 0 the accumulator is reset to zero before the step's product is
   added; at k = 1, 2 the product is added to what the step before left; at k = 3 the product is added and the
   accumulator is copied whole into the output block, which only then is written back. Here: the input blocks
   read off the arrays the region finds, the two conditions in closed form over the grid, where the output
   window is idle, and the names of the buffers the body is called with. -/
import proofs.«424474_j74629351735482_3_alg».proof.Proof.Gen.KernelIdeal.Launch
import proofs.«424474_j74629351735482_3_alg».proof.Proof.Gen.KernelIdeal.Skeleton
import proofs.«424474_j74629351735482_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks, at the contents `V` the region is entered with -/

section Blocks

variable (V : (c : Dev nD) → (b : Ref sig .tc) → Buf (Elt F) ((c : Thread nD τ).loc b))

/-- Window `w`'s block at point `t`, read off its array as the region finds it: for the left operand the
    1024 x 2048 tile (i, k) of h, for the right operand the 2048 x 512 tile (k, j) of w2g. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its tile at every point, for any proof data whose array is `V`'s and
    whose body leaves the tile in place: an input is never idle and its blocks are not cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions of the body -/

/-- "This is the first contraction step" (k = 0), as the body computes it from the third grid coordinate. -/
abbrev cond1_0 (i : grid1.Coords) : Prop := (Scalar.cmpi .ne (Scalar.extui (Scalar.cmpi .eq (BitVec.ofNat 32 (i 2).val) 0#32)) 0#32) = 1#1
/-- It holds exactly at the points t with t mod 4 = 0 (k is the fastest coordinate of the 4 x 8 x 4 grid). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last contraction step" (k = 3). -/
abbrev cond1_1 (i : grid1.Coords) : Prop := k1_cond2 i = 1#1
/-- It holds exactly at the points t with t mod 4 = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The operands are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At a first step (k = 0) nothing is stored into the output block: the window is idle, -/
theorem idleAt1_2_A : ∀ t : Fin cfg1.N, cond1_0 (grid1.coords t) → ¬cond1_1 (grid1.coords t) → cfg1.idle 2 (grid1.coords t) = true := by decide +kernel
/-- and the block is not written back there. -/
theorem noFlush1_2_A : ∀ t : Fin cfg1.N, cond1_0 (grid1.coords t) → ¬cond1_1 (grid1.coords t) → (cfg1.win 2).flush t = false := by decide +kernel
/-- The same at a middle step (k = 1, 2). -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At a last step (k = 3) the accumulator is stored into the output block: the window is live. -/
theorem liveAt1_2_C : ∀ t : Fin cfg1.N, ¬cond1_0 (grid1.coords t) → cond1_1 (grid1.coords t) → cfg1.idle 2 (grid1.coords t) = false := by decide +kernel

/-! ## The buffers the body is called with -/

/-- One staging buffer of the output window, through which its contents are stated (which one does not matter:
    the contents are those of pieces that cover the block). -/
abbrev VO1_2 : View sig .tc .vmem S1024x512 .f32 := (Memref.whole cc1_stg2_0 : Memref sig .tc .vmem S1024x512 .f32).view
/-- Each window's current staging buffer at point `t`, spelled as the pipeline passes it, and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The accumulator: a whole buffer of the kernel's own, passed beside the windows and carried from point to point. -/
abbrev scM1_0 : Memref sig .tc .vmem S1024x512 .f32 := Memref.whole cc1_scratch0
/-- The accumulator as a view: what it holds is stated through it. -/
abbrev VS1_0 : View sig .tc .vmem S1024x512 .f32 := scM1_0.view

/-- What the launch hands this region beside its windows: the first region's six staging buffers, each whole at
    some contents, the accumulator owned at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KIRegion1RunA.lean ====
/- The second matmul region, a first contraction step (k = 0): the whole body run on any whole buffers, the pieces its
   stores leave in the accumulator (and, at a last step, in the output block) found by running it. -/
import proofs.«424474_j74629351735482_3_alg».proof.Proof.KIRegion1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST STEP (k = 0: the reset is taken, the copy-out is not). On whole buffers — the operands' tiles at `x0`, `x1`, the
    output block at contents `xi2` that are handed back untouched (nothing is stored there), the accumulator at anything —
    the body runs to the continuation holding the operands as they were, the output block as it was, and the accumulator
    with the pieces `LS0` written (last first): the zero fill, then the zero fill read back plus the product of the tiles. -/
noncomputable def kernelRun1_A (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .bf16) (x1 : Vec F S2048x512 .bf16) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_nn_acc_kernel i arg3 harg3 arg4 harg4 arg5 harg5 arg6 harg6) K } := by
  refine ⟨[], ?_, fun xi2 E K => ?run⟩
  case run =>
    simp only [cc1__matmul_nn_acc_kernel_eq_skeleton]; unfold cc1__matmul_nn_acc_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KIRegion1RunB.lean ====
/- The second matmul region, a middle contraction step (k = 1, 2): the whole body run on any whole buffers, the pieces its
   stores leave in the accumulator (and, at a last step, in the output block) found by running it. -/
import proofs.«424474_j74629351735482_3_alg».proof.Proof.KIRegion1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- MIDDLE STEP (k = 1, 2: neither the reset nor the copy-out is taken). On whole buffers — the operands' tiles at `x0`,
    `x1`, the output block at contents `xi2` handed back untouched, the accumulator at the contents `xs0` the step before
    left — the body runs to the continuation holding the operands and the output block as they were and the accumulator
    with the piece `LS0` written: `xs0` plus the product of the tiles. -/
noncomputable def kernelRun1_B (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .bf16) (x1 : Vec F S2048x512 .bf16) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_nn_acc_kernel i arg3 harg3 arg4 harg4 arg5 harg5 arg6 harg6) K } := by
  refine ⟨[], ?_, fun xi2 E K => ?run⟩
  case run =>
    simp only [cc1__matmul_nn_acc_kernel_eq_skeleton]; unfold cc1__matmul_nn_acc_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KIRegion1RunC.lean ====
/- The second matmul region, a last contraction step (k = 3): the whole body run on any whole buffers, the pieces its
   stores leave in the accumulator (and, at a last step, in the output block) found by running it. -/
import proofs.«424474_j74629351735482_3_alg».proof.Proof.KIRegion1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- LAST STEP (k = 3: the reset is not taken, the copy-out is). On whole buffers — the operands' tiles at `x0`, `x1`, the
    output block at anything, the accumulator at the contents `xs0` the step before left — the body runs to the
    continuation holding the operands as they were, the accumulator with the piece `LS0` written (`xs0` plus the product of
    the tiles) and the output block with the piece `L2` written: the accumulator read back whole. -/
noncomputable def kernelRun1_C (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_nn_acc_kernel i arg3 harg3 arg4 harg4 arg5 harg5 arg6 harg6) K } := by
  refine ⟨?_, ?_, fun E K => ?run⟩
  case run =>
    simp only [cc1__matmul_nn_acc_kernel_eq_skeleton]; unfold cc1__matmul_nn_acc_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KIRegion1.lean ====
/- The second matmul region (out = h · w2g with the contraction split in four steps over a carried f32
   accumulator), stated at the contents `V` the region is entered with: what each of the three control cases
   leaves in the accumulator and in the output block, those contents point by point along the grid
   (`outsAt1`), the region's invariant (the accumulator at what the point before left), the pipeline's proof
   data and the body obligation at every grid point. -/
import proofs.«424474_j74629351735482_3_alg».proof.Proof.KIRegion1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A first step stores nothing into the output block (idle there, not written back): no pieces, a placeholder that
    nothing consults. -/
def out1_A_2 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .bf16) (x1 : Vec F S2048x512 .bf16) : Vec F S1024x512 .f32 :=
  VO1_2.read (Elt F) (VO1_2.writes (Elt F) VO1_2.junk (kernelRun1_A c i arg3 harg3 arg4 harg4 arg5 harg5 arg6 harg6 hc0 hc1 x0 x1).1)

/-- A first step's two stores into the accumulator (the zero fill, then the sum) each cover it whole. -/
theorem scover1_A_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .bf16) (x1 : Vec F S2048x512 .bf16) (y : S1024x512.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x512.size (by sl_kernel_rfl) y

/-- What a first step leaves in the accumulator: its pieces read back. -/
def sout1_A_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .bf16) (x1 : Vec F S2048x512 .bf16) : Vec F S1024x512 .f32 :=
  VS1_0.read (Elt F) (VS1_0.writes (Elt F) VS1_0.junk (kernelRun1_A c i arg3 harg3 arg4 harg4 arg5 harg5 arg6 harg6 hc0 hc1 x0 x1).2.1)

/-- A middle step stores nothing into the output block either: a placeholder that nothing consults. -/
def out1_B_2 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .bf16) (x1 : Vec F S2048x512 .bf16) (xs0 : Vec F S1024x512 .f32) : Vec F S1024x512 .f32 :=
  VO1_2.read (Elt F) (VO1_2.writes (Elt F) VO1_2.junk (kernelRun1_B c i arg3 harg3 arg4 harg4 arg5 harg5 arg6 harg6 hc0 hc1 x0 x1 xs0).1)

/-- A middle step's one store into the accumulator covers it whole. -/
theorem scover1_B_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .bf16) (x1 : Vec F S2048x512 .bf16) (xs0 : Vec F S1024x512 .f32) (y : S1024x512.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x512.size (by sl_kernel_rfl) y

/-- What a middle step leaves in the accumulator: its piece read back. -/
def sout1_B_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .bf16) (x1 : Vec F S2048x512 .bf16) (xs0 : Vec F S1024x512 .f32) : Vec F S1024x512 .f32 :=
  VS1_0.read (Elt F) (VS1_0.writes (Elt F) VS1_0.junk (kernelRun1_B c i arg3 harg3 arg4 harg4 arg5 harg5 arg6 harg6 hc0 hc1 x0 x1 xs0).2.1)

/-- A last step's store into the output block covers it whole. -/
theorem cover1_C_2 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) (y : S1024x512.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x512.size (by sl_kernel_rfl) y

/-- What a last step leaves in the output block: its piece read back. -/
def out1_C_2 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) : Vec F S1024x512 .f32 :=
  VO1_2.read (Elt F) (VO1_2.writes (Elt F) VO1_2.junk (kernelRun1_C c i arg3 harg3 arg4 harg4 arg5 harg5 arg6 harg6 hc0 hc1 x0 x1 xs0).1)

/-- A last step's one store into the accumulator covers it whole. -/
theorem scover1_C_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) (y : S1024x512.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x512.size (by sl_kernel_rfl) y

/-- What a last step leaves in the accumulator: its piece read back. -/
def sout1_C_0 (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) : Vec F S1024x512 .f32 :=
  VS1_0.read (Elt F) (VS1_0.writes (Elt F) VS1_0.junk (kernelRun1_C c i arg3 harg3 arg4 harg4 arg5 harg5 arg6 harg6 hc0 hc1 x0 x1 xs0).2.1)

/-! ## What the accumulator and the output block hold after each point -/

section Region

variable (V : (c : Dev nD) → (b : Ref sig .tc) → Buf (Elt F) ((c : Thread nD τ).loc b))

/-- THE ACCUMULATION. The pair (output block, accumulator) after the body at position `n`: the case the closed forms
    select at `n` (k = n mod 4), run on the point's buffers and operand tiles; a middle or last step reads the accumulator
    at what position `n - 1` left in it (nothing touches it between two points), a first step covers it before reading.
    So after the step k of a group of four the accumulator holds the sum of the products of the tiles 0..k of the group,
    and after the last step the output block holds that sum too. The output component at a first or middle step is a
    placeholder: the window is idle there. k = 0 and k = 3 at once is no case. -/
def outsAt1 (c : Dev nD) : (n : ℕ) → n < cfg1.N → Vec F S1024x512 .f32 × Vec F S1024x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first step: that case's contents. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle step: that case's contents, over what the point before left in the accumulator. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last step: that case's contents, over what the point before left in the accumulator. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The first region's six staging buffers, each whole at some contents: this region never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the launch hands the region, with those six buffers bundled. -/
theorem PhiA1_split (c : Dev nD) :
    (Pipeline.ΦA spec1 c : sProp 𝕄)
      = iprop(iprop(rest1 (F := F) c ∗ (∃ d, owns (c : Thread nD τ) scM1_0 fullShare d)) ∗ (∃ r, prngReg c r)) := by
  rw [PhiA1_eq]; unfold rest1
  have h₁ : (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) : sProp 𝕄)
      ⊢ iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ d, owns (c : Thread nD τ) scM1_0 fullShare d)) ∗ (∃ r, prngReg c r)) := by
    iintro ⟨⟨Ha, Hb, Hc, Hd, He, Hf, HS⟩, Hg⟩
    isplitl [Ha Hb Hc Hd He Hf HS]
    · isplitl [Ha Hb Hc Hd He Hf]
      · isplitl [Ha]; · iexact Ha
        isplitl [Hb]; · iexact Hb
        isplitl [Hc]; · iexact Hc
        isplitl [Hd]; · iexact Hd
        isplitl [He]; · iexact He
        iexact Hf
      iexact HS
    iexact Hg
  have h₂ : (iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ d, owns (c : Thread nD τ) scM1_0 fullShare d)) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
    iintro ⟨⟨⟨Ha, Hb, Hc, Hd, He, Hf⟩, HS⟩, Hg⟩
    isplitl [Ha Hb Hc Hd He Hf HS]
    · isplitl [Ha]; · iexact Ha
      isplitl [Hb]; · iexact Hb
      isplitl [Hc]; · iexact Hc
      isplitl [Hd]; · iexact Hd
      isplitl [He]; · iexact He
      isplitl [Hf]; · iexact Hf
      iexact HS
    iexact Hg
  exact BI.equiv_iff.mp ⟨h₁, h₂⟩

/-- The region invariant before position `n`: before the first point what the launch hands over (the accumulator at
    anything); afterwards the same with the accumulator at what the point before left in it (`outsAt1`'s second component). -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(rest1 (F := F) c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this region on core `c`: the arrays as the region finds them (`V`); after the body at point `t`
    each operand's buffer at its tile and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each operand's current staging buffer holds its tile at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The operands' buffers hold their tiles; k = t mod 4 says which case the point is in. The
    invariant hands the body the accumulator at what the point before left (at anything before the very first point,
    and a first step does not care) and takes it back at this point's contents, which the case's pieces cover; at a
    first or middle step the output block goes back as it came, at a last step it comes back covered by the copy of
    the accumulator. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · -- a first step
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
        rw [outsAt1_A V c t h0 h1]
        unfold sout1_A_0; (try dsimp only)
        by_cases hz : t.val = 0
        · rw [PhiS1_castSucc V c t, PhiS1_zero V c _ _ hz, PhiA1_split]
          iintro ⟨⟨⟨Hr, HS0⟩, Hg⟩, Ho, ⟨%d0, H0⟩, ⟨%d1, H1⟩, ⟨%d2, H2⟩⟩
          iapply ((kernelRun1_A c (grid1.coords t) _ _ _ _ _ _ _ _ ((hcond1_0 t).mpr h0) (fun h => h1 ((hcond1_1 t).mp h)) (iblk1 V c 0 t) (iblk1 V c 1 t)).2.2 _ Set.univ _)
          isplitl [H0]; · iexact H0
          isplitl [H1]; · iexact H1
          isplitl [H2]; · iexact H2
          isplitl [HS0]; · iexact HS0
          iintro ⟨H0, H1, H2, ⟨%es0, HS0⟩⟩
          isplitl [Hr HS0 Hg]
          · isplitl [Hr HS0]
            · isplitl [Hr]; · iexact Hr
              unfold owns; iexists _; isplitr
              swap; · iexact HS0
              ipureintro; exact View.read_writes_of_cover _ _ _ _ _ (scover1_A_0 c _ _ _ _ _ _ _ _ _ _ _ _ _)
            iexact Hg
          isplitl [Ho]; · iexact Ho
          isplitl [H0]; · iexact H0
          isplitl [H1]; · iexact H1
          iexists _; iexact H2
        · rw [PhiS1_castSucc V c t, PhiS1_pos V c _ _ hz]
          iintro ⟨⟨⟨Hr, HS0⟩, Hg⟩, Ho, ⟨%d0, H0⟩, ⟨%d1, H1⟩, ⟨%d2, H2⟩⟩
          iapply ((kernelRun1_A c (grid1.coords t) _ _ _ _ _ _ _ _ ((hcond1_0 t).mpr h0) (fun h => h1 ((hcond1_1 t).mp h)) (iblk1 V c 0 t) (iblk1 V c 1 t)).2.2 _ Set.univ _)
          isplitl [H0]; · iexact H0
          isplitl [H1]; · iexact H1
          isplitl [H2]; · iexact H2
          isplitl [HS0]; · iexists _; iexact HS0
          iintro ⟨H0, H1, H2, ⟨%es0, HS0⟩⟩
          isplitl [Hr HS0 Hg]
          · isplitl [Hr HS0]
            · isplitl [Hr]; · iexact Hr
              unfold owns; iexists _; isplitr
              swap; · iexact HS0
              ipureintro; exact View.read_writes_of_cover _ _ _ _ _ (scover1_A_0 c _ _ _ _ _ _ _ _ _ _ _ _ _)
            iexact Hg
          isplitl [Ho]; · iexact Ho
          isplitl [H0]; · iexact H0
          isplitl [H1]; · iexact H1
          iexists _; iexact H2
  · by_cases h1 : t.val % 4 = 3
    · -- a last step
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2_C t (fun h => h0 ((hcond1_0 t).mp h)) ((hcond1_1 t).mpr h1)], after1_2]
        rw [outsAt1_C V c t h0 h1]
        unfold out1_C_2 sout1_C_0; (try dsimp only)
        by_cases hz : t.val = 0
        · exfalso; omega
        · rw [PhiS1_castSucc V c t, PhiS1_pos V c _ _ hz]
          iintro ⟨⟨⟨Hr, HS0⟩, Hg⟩, Ho, ⟨%d0, H0⟩, ⟨%d1, H1⟩, ⟨%d2, H2⟩⟩
          iapply ((kernelRun1_C c (grid1.coords t) _ _ _ _ _ _ _ _ (fun h => h0 ((hcond1_0 t).mp h)) ((hcond1_1 t).mpr h1) (iblk1 V c 0 t) (iblk1 V c 1 t) _).2.2 Set.univ _)
          isplitl [H0]; · iexact H0
          isplitl [H1]; · iexact H1
          isplitl [H2]; · iexists _; iexact H2
          isplitl [HS0]; · iexact HS0
          iintro ⟨H0, H1, ⟨%e2, H2⟩, ⟨%es0, HS0⟩⟩
          isplitl [Hr HS0 Hg]
          · isplitl [Hr HS0]
            · isplitl [Hr]; · iexact Hr
              unfold owns; iexists _; isplitr
              swap; · iexact HS0
              ipureintro; exact View.read_writes_of_cover _ _ _ _ _ (scover1_C_0 c _ _ _ _ _ _ _ _ _ _ _ _ _ _)
            iexact Hg
          isplitl [Ho]; · iexact Ho
          isplitl [H0]; · iexact H0
          isplitl [H1]; · iexact H1
          unfold owns; iexists _; isplitr
          swap; · iexact H2
          ipureintro; exact View.read_writes_of_cover _ _ _ _ _ (cover1_C_2 c _ _ _ _ _ _ _ _ _ _ _ _ _ _)
    · -- a middle step
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
        rw [outsAt1_B V c t h0 h1]
        unfold sout1_B_0; (try dsimp only)
        by_cases hz : t.val = 0
        · exfalso; omega
        · rw [PhiS1_castSucc V c t, PhiS1_pos V c _ _ hz]
          iintro ⟨⟨⟨Hr, HS0⟩, Hg⟩, Ho, ⟨%d0, H0⟩, ⟨%d1, H1⟩, ⟨%d2, H2⟩⟩
          iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
          isplitl [H0]; · iexact H0
          isplitl [H1]; · iexact H1
          isplitl [H2]; · iexact H2
          isplitl [HS0]; · iexact HS0
          iintro ⟨H0, H1, H2, ⟨%es0, HS0⟩⟩
          isplitl [Hr HS0 Hg]
          · isplitl [Hr HS0]
            · isplitl [Hr]; · iexact Hr
              unfold owns; iexists _; isplitr
              swap; · iexact HS0
              ipureintro; exact View.read_writes_of_cover _ _ _ _ _ (scover1_B_0 c _ _ _ _ _ _ _ _ _ _ _ _ _ _)
            iexact Hg
          isplitl [Ho]; · iexact Ho
          isplitl [H0]; · iexact H0
          isplitl [H1]; · iexact H1
          iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_split]
  iintro ⟨⟨Hr, HS0⟩, Hg⟩
  isplitl [Hr HS0]
  · isplitl [Hr]; · iexact Hr
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region

end Cert.KernelIdeal.Hand

end
-- ==== Proof.KIRun.lean ====
import proofs.«424474_j74629351735482_3_alg».proof.Proof.KIRegion0
import proofs.«424474_j74629351735482_3_alg».proof.Proof.KIRegion1
import proofs.«424474_j74629351735482_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The whole program run: four host stretches, then the two matmul calls

The program first prepares its operands on the host (the wrapped indices, the gathered and rounded weight rows,
the rounded activations: four stretches of host operations), then runs the first matmul call, which fills the
intermediate array h, then the second, which reads h and fills the result. Between any two of these six steps
the core holds every unscoped buffer at known contents: the launch memory, then what each host stretch computes,
then — after a call — the same with that call's arrays at what its write-backs leave. The run is assembled from
one record per step; at the end the result array holds what the second call's write-backs leave, and no step has
written an argument array.

Stated for every float family, so that it serves the exact and the word-level reading of the program alike. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the steps -/

/-- After the four host stretches: what the first call finds. -/
abbrev B4 : Dev nD → Valuation τ sig (Elt F) := fun c => Gen.V4 m c
/-- The same, read at the TensorCore's references. -/
abbrev E0 : (c : Dev nD) → (b : Ref sig .tc) → Buf (Elt F) ((c : Thread nD τ).loc b) := fun c b => B4 m c b

/-- After the first call: its arrays at what its write-backs leave (the two inputs as found, h block by block),
    every other buffer as before. -/
def B5 (c : Dev nD) : Valuation τ sig (Elt F) :=
  Pipeline.withArrays spec0 c (B4 m c) fun w => (dat0 (E0 m) c).arrAt w cfg0.N
theorem B5_arr (c : Dev nD) (w : Fin cfg0.W) :
    B5 m c (Proc.devRef .tc (Pipeline.arrRef spec0 w)) = (dat0 (E0 m) c).arrAt w cfg0.N := by
  unfold B5; exact Pipeline.withArrays_arr spec0 launch0.win.arr_inj c _ _ w
theorem B5_of_ne (c : Dev nD) (b : Ref sig .tc) (hb : ∀ w, Pipeline.arrRef spec0 w ≠ b) :
    B5 m c (Proc.devRef .tc b) = B4 m c (Proc.devRef .tc b) := by
  unfold B5; exact Pipeline.withArrays_of_ne spec0 c _ _ b hb
/-- What the second call finds. -/
abbrev E1 : (c : Dev nD) → (b : Ref sig .tc) → Buf (Elt F) ((c : Thread nD τ).loc b) := fun c b => B5 m c b
theorem left0 (c : Dev nD) (w : Fin cfg0.W) : (dat0 (E0 m) c).arrAt w cfg0.N = E1 m c (Pipeline.arrRef spec0 w) :=
  (B5_arr m c w).symm
theorem kept0 (c : Dev nD) : ∀ b, b ∉ Finset.univ.image (Pipeline.arrRef spec0) → E1 m c b = E0 m c b :=
  fun b hb => B5_of_ne m c b fun w e => hb (Finset.mem_image.mpr ⟨w, Finset.mem_univ _, e⟩)

/-- After the second call: its arrays at what its write-backs leave (h and the gathered columns as found, the
    result block by block), every other buffer as before. -/
def B6 (c : Dev nD) : Valuation τ sig (Elt F) :=
  Pipeline.withArrays spec1 c (B5 m c) fun w => (dat1 (E1 m) c).arrAt w cfg1.N
theorem B6_arr (c : Dev nD) (w : Fin cfg1.W) :
    B6 m c (Proc.devRef .tc (Pipeline.arrRef spec1 w)) = (dat1 (E1 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E2 : (c : Dev nD) → (b : Ref sig .tc) → Buf (Elt F) ((c : Thread nD τ).loc b) := fun c b => B6 m c b
theorem left1 (c : Dev nD) (w : Fin cfg1.W) : (dat1 (E1 m) c).arrAt w cfg1.N = E2 m c (Pipeline.arrRef spec1 w) :=
  (B6_arr m c w).symm
theorem kept1 (c : Dev nD) : ∀ b, b ∉ Finset.univ.image (Pipeline.arrRef spec1) → E2 m c b = E1 m c b :=
  fun b hb => B6_of_ne m c b fun w e => hb (Finset.mem_image.mpr ⟨w, Finset.mem_univ _, e⟩)

/-! ### No step writes an argument array -/

theorem B6_main_arg0 (c : Dev nD) : B6 m c (Proc.devRef .tc main_arg0) = m ((c : Thread nD τ).loc main_arg0) :=
  (B6_of_ne m c main_arg0 (by decide)).trans <| (B5_of_ne m c main_arg0 (by decide)).trans <|
    (V4_of m c main_arg0 (by decide)).trans <| (V3_of m c main_arg0 (by decide)).trans <|
    (V2_of m c main_arg0 (by decide)).trans <| (V1_of m c main_arg0 (by decide)).trans rfl
theorem B6_main_arg1 (c : Dev nD) : B6 m c (Proc.devRef .tc main_arg1) = m ((c : Thread nD τ).loc main_arg1) :=
  (B6_of_ne m c main_arg1 (by decide)).trans <| (B5_of_ne m c main_arg1 (by decide)).trans <|
    (V4_of m c main_arg1 (by decide)).trans <| (V3_of m c main_arg1 (by decide)).trans <|
    (V2_of m c main_arg1 (by decide)).trans <| (V1_of m c main_arg1 (by decide)).trans rfl
theorem B6_main_arg2 (c : Dev nD) : B6 m c (Proc.devRef .tc main_arg2) = m ((c : Thread nD τ).loc main_arg2) :=
  (B6_of_ne m c main_arg2 (by decide)).trans <| (B5_of_ne m c main_arg2 (by decide)).trans <|
    (V4_of m c main_arg2 (by decide)).trans <| (V3_of m c main_arg2 (by decide)).trans <|
    (V2_of m c main_arg2 (by decide)).trans <| (V1_of m c main_arg2 (by decide)).trans rfl
theorem B6_main_arg3 (c : Dev nD) : B6 m c (Proc.devRef .tc main_arg3) = m ((c : Thread nD τ).loc main_arg3) :=
  (B6_of_ne m c main_arg3 (by decide)).trans <| (B5_of_ne m c main_arg3 (by decide)).trans <|
    (V4_of m c main_arg3 (by decide)).trans <| (V3_of m c main_arg3 (by decide)).trans <|
    (V2_of m c main_arg3 (by decide)).trans <| (V1_of m c main_arg3 (by decide)).trans rfl

/-- The second call does not touch the gathered columns it reads: they are as the host left them. -/
theorem E1_main_v4 (c : Dev nD) : E1 m c main_v4 = E0 m c main_v4 := B5_of_ne m c main_v4 (by decide)
/-- The intermediate array h, as the second call finds it, is what the first call's write-backs leave. -/
theorem E1_main_v6 (c : Dev nD) : E1 m c main_v6 = (dat0 (E0 m) c).arrAt 2 cfg0.N := B5_arr m c 2

/-! ## The proof data of the two calls, and what rides along -/

/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything. -/
abbrev L : GSem nD τ sig → Finset Unit := fun _ => ∅
abbrev lv : GSem nD τ sig → Unit → ℕ := fun _ _ => 0
/-- Beside the buffers every step carries the core's generator register at some state and its dues, at nothing. -/
abbrev R (c : Dev nD) : sProp 𝕄 := iprop((∃ r, prngReg c r) ∗ ∃ W, owes (c : Thread nD τ) (0 : CellTallies nD τ sig Unit) W)
/-- A host stretch as a step, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues: every unscoped buffer at the last contents, the generator register at some state. -/
abbrev Tₙ (c : Dev nD) : sProp 𝕄 := iprop(StableHlo.held (c : Thread nD τ) (Pipeline.ucRefs τ sig) (B6 m c) ∗ ∃ r, prngReg c r)

/-! ## The two calls as steps -/

set_option backward.isDefEq.respectTransparency.types false in
/-- The first call: entered from every unscoped buffer at the contents after the host stretches, left at those
    contents with h filled. Its three arrays are split out of the unscoped buffers on entry and put back on exit; the
    generator register passes through its invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from the contents the first call leaves, left with the result array filled. Its
    invariant starts as the class's (every scoped buffer no window stages at anything, the generator register at some
    state), names the accumulator's contents from the first point on, and forgets them again at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E1 m) c).Φ 0 from rfl]
    refine BIBase.Entails.trans ?_ (hin1 (E1 m) c)
    unfold Pipeline.ΦA
    iintro ⟨Hp, -, Hr⟩
    isplitl [Hr]; · iexact Hr
    iexact Hp
  hout c := by
    rw [Pipeline.ownSems0_none, show (pdats m 1 c).Φ (Fin.last _) = (dat1 (E1 m) c).Φ (Fin.last cfg1.N) from rfl]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (left1 m c) (kept1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six steps, and the run -/

abbrev segs : List (Pipeline.Seg (pcfgs (F := F)) adm (pdats m) () defs₀ 𝒱₀ L lv) :=
  [ .host (hseg hostOps0 hostOps0_sub hostOps0_fresh (fun c => Gen.V0 m c)),
    .host (hseg hostOps0_1 hostOps0_1_sub hostOps0_1_fresh (fun c => Gen.V1 m c)),
    .host (hseg hostOps0_2 hostOps0_2_sub hostOps0_2_fresh (fun c => Gen.V2 m c)),
    .host (hseg hostOps0_3 hostOps0_3_sub hostOps0_3_fresh (fun c => Gen.V3 m c)),
    .region (reg0 m),
    .region (reg1 m) ]

/-- The program is the run of its steps. -/
theorem main_run (c : Dev nD) : main (F := F) c = Pipeline.Seg.run (segs m) := (main_chain c).trans (by chain_rfl)

set_option backward.isDefEq.respectTransparency.types false in
/-- From any memory with zero counters every weakly fair execution of the program on the TensorCores terminates,
    nothing faulting; at the end the result array holds what the second call's write-backs leave, and every
    argument array is as launched. -/
theorem run_main : θ_run defs (onTc (τ := τ) (main (F := F))) ⟨m, fun _ => 0, ρ⟩ (fun r => ∀ c : Dev nD,
      r.2.mem ((c.tc : Thread nD τ).loc main_v7) = (dat1 (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c =>
      ⟨(h c _ (mem_uc main_v7 (by decide))).trans (B6_arr m c 2),
       (h c _ (mem_uc main_arg0 (by decide))).trans (B6_main_arg0 m c),
       (h c _ (mem_uc main_arg1 (by decide))).trans (B6_main_arg1 m c),
       (h c _ (mem_uc main_arg2 (by decide))).trans (B6_main_arg2 m c),
       (h c _ (mem_uc main_arg3 (by decide))).trans (B6_main_arg3 m c)⟩)

end Cert.KernelIdeal.Hand

end
-- ==== Proof.Spec.lean ====
/-
  The two matrix products this kernel computes, as whole-array functions over the extended reals.

  `mm1 x w` is the product of `x` (4096 × 4096) with the transpose of `w` (8192 × 4096): entry (b, k) is the sum over
  i of x(b, i) · w(k, i). `mm2 h w` is the plain product of `h` (4096 × 8192) with `w` (8192 × 4096): entry (b, o) is
  the sum over k of h(b, k) · w(k, o). Sums of extended reals are commutative and associative, so the order in which
  a kernel accumulates the terms does not matter.
-/
import Idealize.ShloMosaic.PureOps.Ideal
import Idealize.ShloMosaic.Lib.ValueIdx

noncomputable section

namespace Cert.Spec

open Idealize.ShloMosaic Idealize.ShloMosaic.ValueIdx

/-- Entry (b, k): the row b of `x` against the row k of `w`. -/
def mm1 (x : (⟨2, ![4096, 4096]⟩ : Shape).Idx → EReal) (w : (⟨2, ![8192, 4096]⟩ : Shape).Idx → EReal) :
    (⟨2, ![4096, 8192]⟩ : Shape).Idx → EReal :=
  fun j => ∑ i : Fin 4096, x (ix2 (⟨(j 0).val, (j 0).isLt⟩ : Fin 4096) i) * w (ix2 (⟨(j 1).val, (j 1).isLt⟩ : Fin 8192) i)

/-- Entry (b, o): the row b of `h` against the column o of `w`. -/
def mm2 (h : (⟨2, ![4096, 8192]⟩ : Shape).Idx → EReal) (w : (⟨2, ![8192, 4096]⟩ : Shape).Idx → EReal) :
    (⟨2, ![4096, 4096]⟩ : Shape).Idx → EReal :=
  fun j => ∑ k : Fin 8192, h (ix2 (⟨(j 0).val, (j 0).isLt⟩ : Fin 4096) k) * w (ix2 k (⟨(j 1).val, (j 1).isLt⟩ : Fin 4096))

theorem mm1_apply (x : (⟨2, ![4096, 4096]⟩ : Shape).Idx → EReal) (w : (⟨2, ![8192, 4096]⟩ : Shape).Idx → EReal)
    (b : Fin 4096) (k : Fin 8192) :
    mm1 x w (ix2 b k) = ∑ i : Fin 4096, x (ix2 b i) * w (ix2 k i) := rfl

theorem mm2_apply (h : (⟨2, ![4096, 8192]⟩ : Shape).Idx → EReal) (w : (⟨2, ![8192, 4096]⟩ : Shape).Idx → EReal)
    (b : Fin 4096) (o : Fin 4096) :
    mm2 h w (ix2 b o) = ∑ k : Fin 8192, h (ix2 b k) * w (ix2 k o) := rfl

end Cert.Spec

end
-- ==== Proof.KIValue0.lean ====
import proofs.«424474_j74629351735482_3_alg».proof.Proof.KIRegion0
import proofs.«424474_j74629351735482_3_alg».proof.Proof.Spec
import Idealize.ShloMosaic.Lib.Pipeline.Value
import Idealize.ShloMosaic.Lib.ValueIdx
import Idealize.ShloMosaic.PureOps.Ideal.Laws

/-! # What the first matmul call leaves in its output array

Over the extended reals the first call's output array is the whole product x · w1ᵀ: entry (b, k) is the sum
over i of x(b, i) · w1(k, i).

The argument has three steps. (1) Inside one grid point the body's stored value at (p, q) of its
1024 × 512 block is the sum over the common axis of the x block's row p against the w1 block's row q:
rounding to bf16 and the same-shape casts are the identity on extended reals, the accumulator starts at
zero, and the contraction shape has the single axis of length 4096. (2) Grid point t = 16·a + c holds rows
1024·a … of x and rows 512·c … of w1 and writes block (a, c) of the output, so what it writes back is exactly
block (a, c) of the whole product. (3) Every output index (r, s) lies in the block of the point
16·(r / 1024) + s / 512, and every point writes back, so the blocks cover the array. -/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's product at an index of its block -/

/-- The left operand's row is the output index's row … -/
theorem lhs_ntdot_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- … and its column is the contraction index. -/
theorem lhs_ntdot_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
/-- The right operand's row is the output index's column (the right operand enters transposed) … -/
theorem rhs_ntdot_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- … and its column is the contraction index too. -/
theorem rhs_ntdot_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- Entry (p, q) of what the body stores: row p of the first block against row q of the second, summed
    over the 4096 common columns. -/
theorem ntblock_product_apply (x0 : Vec Ideal S1024x4096 .bf16) (x1 : Vec Ideal S512x4096 .bf16) (p : Fin 1024) (q : Fin 512) :
    k0_pay1 (F := Ideal) x0 x1 (ix2 p q) = ∑ k : Fin 4096, x0 (ix2 p k) * x1 (ix2 q k) := by
  unfold k0_pay1
  rw [shapeCast_self, shapeCast_self]
  refine (truncf_apply (ψ := .bf16) _ bitsLt_bf16_f32 (ix2 p q)).trans ?_
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact lhs_ntdot_0 _ _
    | ⟨1, _⟩ => exact (lhs_ntdot_1 _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact rhs_ntdot_0 _ _
    | ⟨1, _⟩ => exact (rhs_ntdot_1 _ _).trans hk)
  rw [el, er]

/-- So if the first block's row p is row r of an array X and the second block's row q is row s of an array
    W, the stored entry (p, q) is entry (r, s) of the product X · Wᵀ. -/
theorem ntblock_is_mm1_block (x0 : Vec Ideal S1024x4096 .bf16) (x1 : Vec Ideal S512x4096 .bf16)
    (X : S4096x4096.Idx → EReal) (W : S8192x4096.Idx → EReal) (p : Fin 1024) (q : Fin 512) (r : Fin 4096) (s : Fin 8192)
    (h0 : ∀ k : Fin 4096, x0 (ix2 p k) = X (ix2 r k)) (h1 : ∀ k : Fin 4096, x1 (ix2 q k) = W (ix2 s k)) :
    k0_pay1 (F := Ideal) x0 x1 (ix2 p q) = Cert.Spec.mm1 X W (ix2 r s) := by
  rw [ntblock_product_apply, Cert.Spec.mm1_apply]
  exact Finset.sum_congr rfl fun k _ => by rw [h0 k, h1 k]

/-! ## The blocks of a grid point, as rows of the arrays -/

variable (V : (c : Dev nD) → (b : Ref sig .tc) → Buf (Elt Ideal) ((c : Thread nD τ).loc b))

theorem nt_zero_offsets : (![0, 0] : Fin 2 → Nat) = fun _ => 0 := funext fun a => by fin_cases a <;> rfl

/-- Point t = 16·a + c of the 4 × 16 grid: the x window is at block row a, the w1 window at block row c, the
    output window at block (a, c). Decided over the 64 points. -/
theorem nt_point_blocks : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16 :=
  (by decide +kernel : ∀ t : Fin grid0.N, _)

/-- The two input blocks at a point and the two input arrays, at their literal shapes. -/
abbrev xblk0 (c : Dev nD) (t : Fin cfg0.N) : Vec Ideal S1024x4096 .bf16 := iblk0 V c 0 t
abbrev wblk0 (c : Dev nD) (t : Fin cfg0.N) : Vec Ideal S512x4096 .bf16 := iblk0 V c 1 t
abbrev xarr0 (c : Dev nD) : S4096x4096.Idx → EReal := V c main_v5
abbrev warr0 (c : Dev nD) : S8192x4096.Idx → EReal := V c main_v1

/-- Row p of the x block at point t is row 1024·(t / 16) + p of x. -/
theorem xblk0_rows (c : Dev nD) (t : Fin cfg0.N) (p : Fin 1024) (k : Fin 4096) (r : Fin 4096)
    (hr : r.val = t.val / 16 * 1024 + p.val) :
    xblk0 V c t (ix2 p k) = xarr0 V c (ix2 r k) := by
  obtain ⟨e0, e1, -, -, -, -⟩ := nt_point_blocks t
  show V c main_v5 (((cfg0.win 0).blk t).view.emb (ix2 p k)) = V c main_v5 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 4096 + 1 * k.val = k.val; omega

/-- Row q of the w1 block at point t is row 512·(t mod 16) + q of w1. -/
theorem wblk0_rows (c : Dev nD) (t : Fin cfg0.N) (q : Fin 512) (k : Fin 4096) (s : Fin 8192)
    (hs : s.val = t.val % 16 * 512 + q.val) :
    wblk0 V c t (ix2 q k) = warr0 V c (ix2 s k) := by
  obtain ⟨-, -, e2, e3, -, -⟩ := nt_point_blocks t
  show V c main_v1 (((cfg0.win 1).blk t).view.emb (ix2 q k)) = V c main_v1 (ix2 s k)
  refine congrArg _ (funext fun a => Fin.ext ?_)
  match a with
  | ⟨0, _⟩ => show win0_1.index t (0 : Fin 2) * 512 + 1 * q.val = s.val; omega
  | ⟨1, _⟩ => show win0_1.index t (1 : Fin 2) * 4096 + 1 * k.val = k.val; omega

/-! ## What a point writes back -/

/-- Point t writes back its block of the whole product x · w1ᵀ. -/
theorem nt_writeback_eq (c : Dev nD) (t : Fin cfg0.N) :
    (dat0 (F := Ideal) V c).flushed 2 t = ((cfg0.win 2).blk t).view.read (Elt Ideal) (Cert.Spec.mm1 (xarr0 V c) (warr0 V c)) := by
  show (cfg0.win 2).cut (grid0.coords t) ((dat0 V c).after 2 t) = _
  rw [after0_2]
  unfold out0_2
  rw [View.canon_unit_zero nt_zero_offsets]
  simp only [View.ld_unit_zero (S := S1024x4096) nt_zero_offsets, View.ld_unit_zero (S := S512x4096) nt_zero_offsets]
  funext j
  have hj0 : (j 0).val < 1024 := (j 0).isLt
  have hj1 : (j 1).val < 512 := (j 1).isLt
  have ht : t.val < 64 := lt_of_lt_of_eq t.isLt N_0
  obtain ⟨-, -, -, -, e4, e5⟩ := nt_point_blocks t
  have hy : (j : S1024x512.Idx) = ix2 (⟨(j 0).val, hj0⟩ : Fin 1024) (⟨(j 1).val, hj1⟩ : Fin 512) :=
    funext fun a => by match a with | ⟨0, _⟩ => rfl | ⟨1, _⟩ => rfl
  have he : (((cfg0.win 2).blk t).view.emb j : S4096x8192.Idx)
      = ix2 (⟨t.val / 16 * 1024 + (j 0).val, by omega⟩ : Fin 4096) (⟨t.val % 16 * 512 + (j 1).val, by omega⟩ : Fin 8192) :=
    funext fun a => Fin.ext (by
      match a with
      | ⟨0, _⟩ => show win0_2.index t (0 : Fin 2) * 1024 + 1 * (j 0).val = t.val / 16 * 1024 + (j 0).val; omega
      | ⟨1, _⟩ => show win0_2.index t (1 : Fin 2) * 512 + 1 * (j 1).val = t.val % 16 * 512 + (j 1).val; omega)
  show k0_pay1 (F := Ideal) (xblk0 V c t) (wblk0 V c t) j = Cert.Spec.mm1 (xarr0 V c) (warr0 V c) (((cfg0.win 2).blk t).view.emb j)
  refine (congrArg (k0_pay1 (F := Ideal) (xblk0 V c t) (wblk0 V c t)) hy).trans ?_
  refine Eq.trans ?_ (congrArg (Cert.Spec.mm1 (xarr0 V c) (warr0 V c)) he).symm
  exact ntblock_is_mm1_block (xblk0 V c t) (wblk0 V c t) (xarr0 V c) (warr0 V c) ⟨(j 0).val, hj0⟩ ⟨(j 1).val, hj1⟩
    ⟨t.val / 16 * 1024 + (j 0).val, by omega⟩ ⟨t.val % 16 * 512 + (j 1).val, by omega⟩
    (fun k => xblk0_rows V c t _ k _ rfl) (fun k => wblk0_rows V c t _ k _ rfl)

/-! ## The blocks cover the output -/

/-- An output index is in point t's block iff each coordinate is in the block's range on its axis. -/
theorem mem_nt_out_block (t : Fin cfg0.N) (i : S4096x8192.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v6).slice (win0_2.rect t)).set ↔ _
  rw [View.set_slice_whole, Rect.mem_set_unit]
  exact Iff.rfl

/-- Index (r, s) is in the block of the point 16·(r / 1024) + s / 512, and that point writes back. -/
theorem nt_out_blocks_cover (i : S4096x8192.Idx) : ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, tv⟩ : ∃ t : Fin cfg0.N, t.val = (i 0).val / 1024 * 16 + (i 1).val / 512 :=
    ⟨⟨(i 0).val / 1024 * 16 + (i 1).val / 512, lt_of_lt_of_eq (by omega : _ < 64) N_0.symm⟩, rfl⟩
  obtain ⟨-, -, -, -, e4, e5⟩ := nt_point_blocks t
  refine ⟨t, flush0_2 t, ?_⟩
  rw [mem_nt_out_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-! ## The output array after the call -/

/-- After all 64 points the output array is x · w1ᵀ of the two input arrays as the call found them. -/
theorem arr0_final (c : Dev nD) : (dat0 (F := Ideal) V c).arrAt 2 cfg0.N = Cert.Spec.mm1 (V c main_v5) (V c main_v1) :=
  (dat0 (F := Ideal) V c).arrAt_eq_of_cover 2 (Cert.Spec.mm1 (xarr0 V c) (warr0 V c)) (fun t _ => nt_writeback_eq V c t) nt_out_blocks_cover

end Cert.KernelIdeal.Hand

end
-- ==== Proof.KIValue1Math.lean ====
import proofs.«424474_j74629351735482_3_alg».proof.Proof.Gen.KernelIdeal.Skeleton
import proofs.«424474_j74629351735482_3_alg».proof.Proof.Spec
import Idealize.ShloMosaic.PureOps.Ideal.Laws
import Idealize.ShloMosaic.Lib.ValueIdx
import Idealize.ShloMosaic.Lib.Pipeline.Value

/-! # The second matmul call's arithmetic, away from the pipeline

The second call multiplies h (4096 × 8192) by w (8192 × 4096) block by block: the grid point (i, j, k) adds to a
1024 × 512 accumulator the product of the 1024 × 2048 block (i, k) of h with the 2048 × 512 block (k, j) of w,
after clearing the accumulator when k = 0. This module holds the facts about that arithmetic that do not mention
the pipeline: what one accumulation step does to one entry of the accumulator, and that a row-by-column sum over
8192 terms is what four such steps build up — the sum of its four consecutive runs of 2048 terms, added in order
onto zero. Extended reals form a commutative monoid under addition, so regrouping a finite sum is free. -/

noncomputable section

namespace Cert.KernelIdeal.Hand.Value1

open Cert.KernelIdeal Cert.KernelIdeal.Gen
open Idealize.ShloMosaic Idealize.ShloMosaic.ValueIdx

/-! ## One accumulation step at an entry -/

/-- The dimension numbers of the step's product: the left block's axis 1 against the right block's axis 0. -/
abbrev mmDot : DotDims S1024x2048 S2048x512 S1024x512 := dot_S1024x2048_S2048x512_S1024x512_1_0_0_1_n_n

/-- The step as a function of the output index, the contraction still indexed by the dot's own contraction shape. -/
theorem k1_pay2_fun (x3 : Vec Ideal S1024x512 .f32) (a : Vec Ideal S1024x2048 .bf16) (b : Vec Ideal S2048x512 .bf16) :
    k1_pay2 (F := Ideal) x3 a b = fun j => x3 j + ∑ k : mmDot.contr.Idx, a (mmDot.lhsIdx j k) * b (mmDot.rhsIdx j k) := by
  unfold k1_pay2
  dsimp only
  simp only [shapeCast_self]
  funext j
  exact congrArg (x3 j + ·) (Ideal.matmul_constant_zero_apply mmDot none a b j)

/-- The left operand is read at the output's row … -/
theorem lhs_row (j : S1024x512.Idx) (k : mmDot.contr.Idx) : (mmDot.lhsIdx j k 0).val = (j 0).val := by
  unfold DotDims.lhsIdx
  rw [dif_neg (show ¬(0 : Fin S1024x2048.rank) ∈ mmDot.lhsBatch by decide),
    dif_pos (show (0 : Fin S1024x2048.rank) ∈ mmDot.lhsNonContracting by decide)]
  rfl
/-- … and at the contraction position along its columns; -/
theorem lhs_col (j : S1024x512.Idx) (k : mmDot.contr.Idx) : (mmDot.lhsIdx j k 1).val = (k ⟨0, by decide⟩).val :=
  mmDot.lhsIdx_val_of_single rfl j k
/-- the right operand at the contraction position along its rows … -/
theorem rhs_row (j : S1024x512.Idx) (k : mmDot.contr.Idx) : (mmDot.rhsIdx j k 0).val = (k ⟨0, by decide⟩).val :=
  mmDot.rhsIdx_val_of_single rfl j k
/-- … and at the output's column. -/
theorem rhs_col (j : S1024x512.Idx) (k : mmDot.contr.Idx) : (mmDot.rhsIdx j k 1).val = (j 1).val := by
  unfold DotDims.rhsIdx
  rw [dif_neg (show ¬(1 : Fin S2048x512.rank) ∈ mmDot.rhsBatch by decide),
    dif_pos (show (1 : Fin S2048x512.rank) ∈ mmDot.rhsNonContracting by decide)]
  rfl

/-- ONE STEP AT AN ENTRY: entry (p, q) of the accumulator gains row p of the left block against column q of the
    right block. -/
theorem k1_pay2_apply (x3 : Vec Ideal S1024x512 .f32) (a : Vec Ideal S1024x2048 .bf16) (b : Vec Ideal S2048x512 .bf16)
    (p : Fin 1024) (q : Fin 512) :
    k1_pay2 (F := Ideal) x3 a b (ix2 p q) = x3 (ix2 p q) + ∑ kk : Fin 2048, a (ix2 p kk) * b (ix2 kk q) := by
  rw [k1_pay2_fun]
  show x3 (ix2 p q) + _ = _
  refine congrArg (x3 (ix2 p q) + ·) ?_
  rw [← Equiv.sum_comp (contrEquiv1 mmDot 2048 rfl rfl).symm]
  refine Finset.sum_congr rfl fun kk _ => ?_
  have hk := contrEquiv1_symm_val mmDot 2048 rfl rfl kk
  have el : mmDot.lhsIdx (ix2 p q) ((contrEquiv1 mmDot 2048 rfl rfl).symm kk) = ix2 p kk := funext fun a => Fin.ext (by
    match a with
    | ⟨0, _⟩ => exact lhs_row _ _
    | ⟨1, _⟩ => exact (lhs_col _ _).trans hk)
  have er : mmDot.rhsIdx (ix2 p q) ((contrEquiv1 mmDot 2048 rfl rfl).symm kk) = ix2 kk q := funext fun a => Fin.ext (by
    match a with
    | ⟨0, _⟩ => exact (rhs_row _ _).trans hk
    | ⟨1, _⟩ => exact rhs_col _ _)
  rw [el, er]

/-- The block the accumulator is cleared to is zero everywhere. -/
theorem k1_pay1_apply (p : Fin 1024) (q : Fin 512) : k1_pay1 (F := Ideal) (ix2 p q) = 0 := by
  unfold k1_pay1
  rw [shapeCast_self]
  exact Ideal.ofBits_zero_f32

/-! ## A sum over 8192 terms as four runs of 2048 -/

/-- Run n of a sequence of 8192 terms: the 2048 terms from position 2048·n on. (Positions are taken modulo 8192 so
    that the definition needs no bound on n; for n below 4 nothing wraps.) -/
def runSum (f : Fin 8192 → EReal) (n : ℕ) : EReal :=
  ∑ kk : Fin 2048, f ⟨(2048 * n + kk.val) % 8192, Nat.mod_lt _ (by decide)⟩

/-- What the accumulator holds after step n of a row-by-column product: the runs 0 … n added in order onto zero. -/
def accUpTo (f : Fin 8192 → EReal) : ℕ → EReal
  | 0 => 0 + runSum f 0
  | n + 1 => accUpTo f n + runSum f (n + 1)

theorem accUpTo_zero (f : Fin 8192 → EReal) : accUpTo f 0 = 0 + runSum f 0 := rfl
theorem accUpTo_succ (f : Fin 8192 → EReal) (n : ℕ) : accUpTo f (n + 1) = accUpTo f n + runSum f (n + 1) := rfl

/-- THE REGROUPING: after the fourth step the accumulator holds the whole sum. Positions 0 … 8191 are the pairs
    (run, place in the run), and a sum over pairs is the iterated sum. -/
theorem sum_eq_accUpTo (f : Fin 8192 → EReal) : ∑ k : Fin 8192, f k = accUpTo f 3 := by
  have e : ∑ k : Fin 8192, f k = ∑ i : Fin 4, runSum f i.val := by
    rw [← Equiv.sum_comp (finProdFinEquiv : Fin 4 × Fin 2048 ≃ Fin 8192) f, Fintype.sum_prod_type]
    refine Finset.sum_congr rfl fun i _ => Finset.sum_congr rfl fun j _ => congrArg f (Fin.ext ?_)
    show j.val + 2048 * i.val = (2048 * i.val + j.val) % 8192
    have := i.isLt; have := j.isLt; omega
  rw [e, Fin.sum_univ_four]
  show _ = (((0 + runSum f 0) + runSum f 1) + runSum f 2) + runSum f 3
  rw [zero_add]
  rfl

/-- The terms of entry (b, o) of the product h · w. -/
def term (h : (⟨2, ![4096, 8192]⟩ : Shape).Idx → EReal) (w : (⟨2, ![8192, 4096]⟩ : Shape).Idx → EReal)
    (b o : Fin 4096) : Fin 8192 → EReal := fun k => h (ix2 b k) * w (ix2 k o)

/-- Entry (b, o) of the whole product is what four steps accumulate. -/
theorem mm2_eq_accUpTo (h : (⟨2, ![4096, 8192]⟩ : Shape).Idx → EReal) (w : (⟨2, ![8192, 4096]⟩ : Shape).Idx → EReal)
    (b o : Fin 4096) : Cert.Spec.mm2 h w (ix2 b o) = accUpTo (term h w b o) 3 :=
  (Cert.Spec.mm2_apply h w b o).trans (sum_eq_accUpTo (term h w b o))

/-- A run of the terms of entry (b, o), spelled out: row b of h against column o of w over the places
    2048·n … 2048·n + 2047, for n below 4. -/
theorem runSum_term (h : (⟨2, ![4096, 8192]⟩ : Shape).Idx → EReal) (w : (⟨2, ![8192, 4096]⟩ : Shape).Idx → EReal)
    (b o : Fin 4096) (n : ℕ) :
    runSum (term h w b o) n = ∑ kk : Fin 2048,
      h (ix2 b ⟨(2048 * n + kk.val) % 8192, Nat.mod_lt _ (by decide)⟩) * w (ix2 ⟨(2048 * n + kk.val) % 8192, Nat.mod_lt _ (by decide)⟩ o) := rfl

end Cert.KernelIdeal.Hand.Value1

end
-- ==== Proof.KIValue1Blocks.lean ====
import proofs.«424474_j74629351735482_3_alg».proof.Proof.Gen.KernelIdeal.Launch
import proofs.«424474_j74629351735482_3_alg».proof.Proof.Gen.KernelIdeal.Points
import Idealize.ShloMosaic.Lib.Pipeline.Value
import Idealize.ShloMosaic.Lib.ValueIdx

/-! # The second matmul call's blocks: where each grid point looks in the three arrays

The second call runs on a 4 × 8 × 4 grid; point number t stands for (i, j, k) with k = t mod 4 running fastest,
j = (t / 4) mod 8 and i = t / 32. At that point the pipeline shows the body the 1024 × 2048 block (i, k) of h,
the 2048 × 512 block (k, j) of w and the 1024 × 512 block (i, j) of the result. An entry of a block sits in its
array at block index × block size + its place inside the block, on each axis. The result's block (i, j) is written
back at the last step k = 3 only, and those 32 blocks tile the 4096 × 4096 result. -/

noncomputable section

namespace Cert.KernelIdeal.Hand.Value1

open Cert.KernelIdeal Cert.KernelIdeal.Gen
open Idealize.ShloMosaic Idealize.ShloMosaic.TcCoe Idealize.ShloMosaic.ValueIdx Idealize.SL.Sem

variable {F : FTy → Type} [FloatOps F]

/-! ## The block indices, decided over the 128 grid points -/

/-- h's block at point t is (t / 32, t mod 4). -/
theorem idx1_0 : ∀ t : Fin cfg1.N, win1_0.index t 0 = t.val / 32 ∧ win1_0.index t 1 = t.val % 4 :=
  (by decide +kernel : ∀ t : Fin grid1.N, win1_0.index t 0 = t.val / 32 ∧ win1_0.index t 1 = t.val % 4)
/-- w's block at point t is (t mod 4, (t / 4) mod 8). -/
theorem idx1_1 : ∀ t : Fin cfg1.N, win1_1.index t 0 = t.val % 4 ∧ win1_1.index t 1 = t.val / 4 % 8 :=
  (by decide +kernel : ∀ t : Fin grid1.N, win1_1.index t 0 = t.val % 4 ∧ win1_1.index t 1 = t.val / 4 % 8)
/-- The result's block at point t is (t / 32, (t / 4) mod 8). -/
theorem idx1_2 : ∀ t : Fin cfg1.N, win1_2.index t 0 = t.val / 32 ∧ win1_2.index t 1 = t.val / 4 % 8 :=
  (by decide +kernel : ∀ t : Fin grid1.N, win1_2.index t 0 = t.val / 32 ∧ win1_2.index t 1 = t.val / 4 % 8)

/-! ## A block's entry in its array -/

/-- Entry x of h's block at point t is h at (1024·(t / 32) + x₀, 2048·(t mod 4) + x₁). -/
theorem hblk_apply (c : Dev nD) (A : Buf (Elt F) ((c : Thread nD τ).loc main_v6)) (t : Fin cfg1.N)
    (x : S1024x2048.Idx) (k : S4096x8192.Idx)
    (h0 : (k 0).val = 1024 * (t.val / 32) + (x 0).val) (h1 : (k 1).val = 2048 * (t.val % 4) + (x 1).val) :
    (((cfg1.win 0).blk t).view.read (Elt F) A : Vec F S1024x2048 .bf16) x = (A : S4096x8192.Idx → Elt F .bf16) k := by
  rw [View.read_apply]
  show A _ = A _
  congr 1
  funext a
  apply Fin.ext
  match a with
  | ⟨0, _⟩ => show win1_0.index t 0 * 1024 + 1 * (x 0).val = (k 0).val; rw [(idx1_0 t).1, h0]; omega
  | ⟨1, _⟩ => show win1_0.index t 1 * 2048 + 1 * (x 1).val = (k 1).val; rw [(idx1_0 t).2, h1]; omega

/-- Entry x of w's block at point t is w at (2048·(t mod 4) + x₀, 512·((t / 4) mod 8) + x₁). -/
theorem wblk_apply (c : Dev nD) (A : Buf (Elt F) ((c : Thread nD τ).loc main_v4)) (t : Fin cfg1.N)
    (x : S2048x512.Idx) (k : S8192x4096.Idx)
    (h0 : (k 0).val = 2048 * (t.val % 4) + (x 0).val) (h1 : (k 1).val = 512 * (t.val / 4 % 8) + (x 1).val) :
    (((cfg1.win 1).blk t).view.read (Elt F) A : Vec F S2048x512 .bf16) x = (A : S8192x4096.Idx → Elt F .bf16) k := by
  rw [View.read_apply]
  show A _ = A _
  congr 1
  funext a
  apply Fin.ext
  match a with
  | ⟨0, _⟩ => show win1_1.index t 0 * 2048 + 1 * (x 0).val = (k 0).val; rw [(idx1_1 t).1, h0]; omega
  | ⟨1, _⟩ => show win1_1.index t 1 * 512 + 1 * (x 1).val = (k 1).val; rw [(idx1_1 t).2, h1]; omega

/-- Entry x of the result's block at point t is the result at (1024·(t / 32) + x₀, 512·((t / 4) mod 8) + x₁). -/
theorem oblk_apply (c : Dev nD) (A : Buf (Elt F) ((c : Thread nD τ).loc main_v7)) (t : Fin cfg1.N)
    (x : S1024x512.Idx) (k : S4096x4096.Idx)
    (h0 : (k 0).val = 1024 * (t.val / 32) + (x 0).val) (h1 : (k 1).val = 512 * (t.val / 4 % 8) + (x 1).val) :
    (((cfg1.win 2).blk t).view.read (Elt F) A : Vec F S1024x512 .f32) x = (A : S4096x4096.Idx → Elt F .f32) k := by
  rw [View.read_apply]
  show A _ = A _
  congr 1
  funext a
  apply Fin.ext
  match a with
  | ⟨0, _⟩ => show win1_2.index t 0 * 1024 + 1 * (x 0).val = (k 0).val; rw [(idx1_2 t).1, h0]; omega
  | ⟨1, _⟩ => show win1_2.index t 1 * 512 + 1 * (x 1).val = (k 1).val; rw [(idx1_2 t).2, h1]; omega

/-! ## The written-back blocks tile the result -/

/-- Every entry (b, o) of the result lies in the block written back at the last step of block row b / 1024 and
    block column o / 512: point ((b / 1024)·8 + o / 512)·4 + 3. -/
theorem cover1_2 (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 128 := N_1
  have h0 : (i 0 : Nat) < 4096 := (i 0).isLt
  have h1 : (i 1 : Nat) < 4096 := (i 1).isLt
  obtain ⟨n, hn_def⟩ : ∃ n : ℕ, n = ((i 0 : Nat) / 1024 * 8 + (i 1 : Nat) / 512) * 4 + 3 := ⟨_, rfl⟩
  have hn : n < cfg1.N := by rw [hN]; omega
  refine ⟨⟨n, hn⟩, (flush1_2 ⟨n, hn⟩).mpr (by show n % 4 = 3; omega), ?_⟩
  show i ∈ ((View.whole main_v7).slice (win1_2.rect ⟨n, hn⟩)).set
  rw [View.set_slice_whole, Rect.mem_set_unit]
  intro a
  match a with
  | ⟨0, _⟩ =>
    show win1_2.index ⟨n, hn⟩ 0 * 1024 ≤ (i 0 : Nat) ∧ (i 0 : Nat) < win1_2.index ⟨n, hn⟩ 0 * 1024 + 1024
    rw [(idx1_2 ⟨n, hn⟩).1]
    show n / 32 * 1024 ≤ (i 0 : Nat) ∧ (i 0 : Nat) < n / 32 * 1024 + 1024
    omega
  | ⟨1, _⟩ =>
    show win1_2.index ⟨n, hn⟩ 1 * 512 ≤ (i 1 : Nat) ∧ (i 1 : Nat) < win1_2.index ⟨n, hn⟩ 1 * 512 + 512
    rw [(idx1_2 ⟨n, hn⟩).2]
    show n / 4 % 8 * 512 ≤ (i 1 : Nat) ∧ (i 1 : Nat) < n / 4 % 8 * 512 + 512
    omega

end Cert.KernelIdeal.Hand.Value1

end
-- ==== Proof.KIValue1Pieces.lean ====
import proofs.«424474_j74629351735482_3_alg».proof.Proof.KIRegion1RunC
import Idealize.ShloMosaic.Lib.Pipeline.Value

/-! # The second matmul call: what each kind of step stores, read back as one block

The body of the second call stores whole 1024 × 512 blocks only, so what its stores leave in a buffer is the payload
of the last store. A first step (k = 0) clears the accumulator and then stores "cleared accumulator + product of the
two operand blocks"; a middle or last step stores "accumulator as found + product"; a last step also copies the
accumulator it has just stored into the output block. Here each of these is read off the list of stores the run of
the body produced, for every float family: the loads read whole buffers, so they read the contents handed in. -/

set_option maxRecDepth 16384

noncomputable section

namespace Cert.KernelIdeal.Hand.Value1

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

/-- The offsets of every load and store of the body: the origin. -/
theorem hz : (![0, 0] : Fin 2 → Nat) = fun _ => 0 := funext fun a => by fin_cases a <;> rfl

/-- A first step leaves in the accumulator the product of the operand blocks added onto the zero block: its second
    store, whose first operand is the zero block read back. -/
theorem canonA (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .bf16) (x1 : Vec F S2048x512 .bf16) :
    View.canon (kernelRun1_A c i arg3 harg3 arg4 harg4 arg5 harg5 arg6 harg6 hc0 hc1 x0 x1).2.1 = k1_pay2 (k1_pay1 (F := F)) x0 x1 := by
  unfold kernelRun1_A
  dsimp only
  sl_unfold_words
  rw [View.canon_cons_unit_zero (S := S1024x512) hz, View.readCov_unit_zero (S := S1024x512) _ hz]
  simp only [View.readAt_eq_ld, harg3.read_unread, harg4.read_unread, View.ld_unit_zero (S := S1024x2048) hz,
    View.ld_unit_zero (S := S2048x512) hz]

/-- A middle step leaves in the accumulator the product added onto what it found there. -/
theorem canonB (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .bf16) (x1 : Vec F S2048x512 .bf16) (xs0 : Vec F S1024x512 .f32) :
    View.canon (kernelRun1_B c i arg3 harg3 arg4 harg4 arg5 harg5 arg6 harg6 hc0 hc1 x0 x1 xs0).2.1 = k1_pay2 xs0 x0 x1 := by
  unfold kernelRun1_B
  dsimp only
  sl_unfold_words
  rw [View.canon_unit_zero hz]
  simp only [View.readAt_eq_ld, harg3.read_unread, harg4.read_unread, harg6.read_unread, View.ld_unit_zero (S := S1024x512) hz,
    View.ld_unit_zero (S := S1024x2048) hz, View.ld_unit_zero (S := S2048x512) hz]

/-- A last step leaves the same in the accumulator … -/
theorem canonC (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) :
    View.canon (kernelRun1_C c i arg3 harg3 arg4 harg4 arg5 harg5 arg6 harg6 hc0 hc1 x0 x1 xs0).2.1 = k1_pay2 xs0 x0 x1 := by
  unfold kernelRun1_C
  dsimp only
  sl_unfold_words
  rw [View.canon_unit_zero hz]
  simp only [View.readAt_eq_ld, harg3.read_unread, harg4.read_unread, harg6.read_unread, View.ld_unit_zero (S := S1024x512) hz,
    View.ld_unit_zero (S := S1024x2048) hz, View.ld_unit_zero (S := S2048x512) hz]

/-- … and copies it into the output block: the accumulator it has just stored, read back whole. -/
theorem canonCout (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) :
    View.canon (kernelRun1_C c i arg3 harg3 arg4 harg4 arg5 harg5 arg6 harg6 hc0 hc1 x0 x1 xs0).1 = k1_pay2 xs0 x0 x1 := by
  unfold kernelRun1_C
  dsimp only
  sl_unfold_words
  rw [View.canon_unit_zero hz, View.readCov_unit_zero (S := S1024x512) _ hz]
  simp only [View.readAt_eq_ld, harg3.read_unread, harg4.read_unread, harg6.read_unread, View.ld_unit_zero (S := S1024x512) hz,
    View.ld_unit_zero (S := S1024x2048) hz, View.ld_unit_zero (S := S2048x512) hz]

end Cert.KernelIdeal.Hand.Value1

end
-- ==== Proof.KIValue1.lean ====
import proofs.«424474_j74629351735482_3_alg».proof.Proof.KIRegion1
import proofs.«424474_j74629351735482_3_alg».proof.Proof.KIValue1Math
import proofs.«424474_j74629351735482_3_alg».proof.Proof.KIValue1Blocks
import proofs.«424474_j74629351735482_3_alg».proof.Proof.KIValue1Pieces
import Idealize.ShloMosaic.Lib.Pipeline.Value

/-! # What the second matmul call leaves in its result array

The call computes h · w for h (4096 × 8192) and w (8192 × 4096) on a 4 × 8 × 4 grid. The four consecutive points
(i, j, 0) … (i, j, 3) work on the result's block (i, j): each adds to an accumulator the product of the block (i, k)
of h with the block (k, j) of w, the first of them after clearing the accumulator, and the fourth copies the
accumulator into the result's block, which is then written back. So after step k the accumulator's entry (p, q)
holds the first k + 1 runs of 2048 terms of the row-by-column sum for the result's entry (1024·i + p, 512·j + q),
added in order onto zero; after the fourth step that is the whole sum, since addition of extended reals is
commutative and associative. The 32 written-back blocks tile the result, so the array ends as the product. -/

set_option maxRecDepth 16384

noncomputable section

namespace Cert.KernelIdeal.Hand.Value1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## What each kind of step leaves, for every float family -/

section Pieces

variable {F : FTy → Type} [FloatOps F]

/-- A first step leaves in the accumulator the product of the operand blocks added onto the zero block. -/
theorem soutA_eq (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : cond1_0 i) (hc1 : ¬cond1_1 i)
    (x0 : Vec F S1024x2048 .bf16) (x1 : Vec F S2048x512 .bf16) :
    sout1_A_0 c i arg3 harg3 arg4 harg4 arg5 harg5 arg6 harg6 hc0 hc1 x0 x1 = k1_pay2 (k1_pay1 (F := F)) x0 x1 := by
  unfold sout1_A_0
  rw [View.read_writes_eq_canon _ _ _ (scover1_A_0 c i arg3 harg3 arg4 harg4 arg5 harg5 arg6 harg6 hc0 hc1 x0 x1)]
  exact canonA c i arg3 harg3 arg4 harg4 arg5 harg5 arg6 harg6 hc0 hc1 x0 x1

/-- A middle step leaves the product added onto what the accumulator held. -/
theorem soutB_eq (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : ¬cond1_1 i)
    (x0 : Vec F S1024x2048 .bf16) (x1 : Vec F S2048x512 .bf16) (xs0 : Vec F S1024x512 .f32) :
    sout1_B_0 c i arg3 harg3 arg4 harg4 arg5 harg5 arg6 harg6 hc0 hc1 x0 x1 xs0 = k1_pay2 xs0 x0 x1 := by
  unfold sout1_B_0
  rw [View.read_writes_eq_canon _ _ _ (scover1_B_0 c i arg3 harg3 arg4 harg4 arg5 harg5 arg6 harg6 hc0 hc1 x0 x1 xs0)]
  exact canonB c i arg3 harg3 arg4 harg4 arg5 harg5 arg6 harg6 hc0 hc1 x0 x1 xs0

/-- A last step leaves the same in the accumulator … -/
theorem soutC_eq (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) :
    sout1_C_0 c i arg3 harg3 arg4 harg4 arg5 harg5 arg6 harg6 hc0 hc1 x0 x1 xs0 = k1_pay2 xs0 x0 x1 := by
  unfold sout1_C_0
  rw [View.read_writes_eq_canon _ _ _ (scover1_C_0 c i arg3 harg3 arg4 harg4 arg5 harg5 arg6 harg6 hc0 hc1 x0 x1 xs0)]
  exact canonC c i arg3 harg3 arg4 harg4 arg5 harg5 arg6 harg6 hc0 hc1 x0 x1 xs0

/-- … and in the output block. -/
theorem outC_eq (c : Dev nD) (i : grid1.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole) (hc0 : ¬cond1_0 i) (hc1 : cond1_1 i)
    (x0 : Vec F S1024x2048 .bf16) (x1 : Vec F S2048x512 .bf16) (xs0 : Vec F S1024x512 .f32) :
    out1_C_2 c i arg3 harg3 arg4 harg4 arg5 harg5 arg6 harg6 hc0 hc1 x0 x1 xs0 = k1_pay2 xs0 x0 x1 := by
  unfold out1_C_2
  rw [View.read_writes_eq_canon _ _ _ (cover1_C_2 c i arg3 harg3 arg4 harg4 arg5 harg5 arg6 harg6 hc0 hc1 x0 x1 xs0)]
  exact canonCout c i arg3 harg3 arg4 harg4 arg5 harg5 arg6 harg6 hc0 hc1 x0 x1 xs0

end Pieces

/-! ## The accumulator along the grid -/

-- the core's buffer contents when the second call is entered
variable (V : (c : Dev nD) → (b : Ref sig .tc) → Buf (Elt Ideal) ((c : Thread nD τ).loc b))

/-- The left array h as the call finds it. -/
abbrev harr (c : Dev nD) : (⟨2, ![4096, 8192]⟩ : Shape).Idx → EReal := V c main_v6
/-- The right array w as the call finds it. -/
abbrev warr (c : Dev nD) : (⟨2, ![8192, 4096]⟩ : Shape).Idx → EReal := V c main_v4
/-- The block of h that point t sees. -/
abbrev ablk (c : Dev nD) (t : Fin cfg1.N) : Vec Ideal S1024x2048 .bf16 := iblk1 V c 0 t
/-- The block of w that point t sees. -/
abbrev bblk (c : Dev nD) (t : Fin cfg1.N) : Vec Ideal S2048x512 .bf16 := iblk1 V c 1 t

/-- After a first step the accumulator is the product of the point's blocks added onto the zero block. -/
theorem acc_first (c : Dev nD) (t : Fin cfg1.N) (h0 : t.val % 4 = 0) :
    (outsAt1 V c t.val t.isLt).2 = k1_pay2 (k1_pay1 (F := Ideal)) (ablk V c t) (bblk V c t) := by
  have h1 : ¬t.val % 4 = 3 := by omega
  rw [outsAt1_A V c t h0 h1]
  dsimp only
  exact soutA_eq (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)

/-- After any later step it is the product of the point's blocks added onto what the point before left. -/
theorem acc_later (c : Dev nD) (t : Fin cfg1.N) (h0 : ¬t.val % 4 = 0) :
    (outsAt1 V c t.val t.isLt).2 = k1_pay2 (outsAt1 V c (t.val - 1) (Nat.lt_of_le_of_lt (Nat.sub_le _ _) t.isLt)).2 (ablk V c t) (bblk V c t) := by
  by_cases h1 : t.val % 4 = 3
  · rw [outsAt1_C V c t h0 h1]
    dsimp only
    exact soutC_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2
  · rw [outsAt1_B V c t h0 h1]
    dsimp only
    exact soutB_eq (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2

/-- After a last step the output block holds what the accumulator holds. -/
theorem out_last (c : Dev nD) (t : Fin cfg1.N) (h1 : t.val % 4 = 3) :
    (outsAt1 V c t.val t.isLt).1 = (outsAt1 V c t.val t.isLt).2 := by
  have h0 : ¬t.val % 4 = 0 := by omega
  rw [outsAt1_C V c t h0 h1]
  dsimp only
  rw [outC_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
    soutC_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2]

/-! ## The blocks' entries in the arrays -/

/-- Entry (p, kk) of the h block at point t. -/
theorem ablk_apply (c : Dev nD) (t : Fin cfg1.N) (p : Fin 1024) (kk : Fin 2048) (b : Fin 4096) (k : Fin 8192)
    (hb : b.val = 1024 * (t.val / 32) + p.val) (hk : k.val = 2048 * (t.val % 4) + kk.val) :
    ablk V c t (ix2 p kk) = harr V c (ix2 b k) :=
  hblk_apply c (V c main_v6) t (ix2 p kk) (ix2 b k) hb hk

/-- Entry (kk, q) of the w block at point t. -/
theorem bblk_apply (c : Dev nD) (t : Fin cfg1.N) (kk : Fin 2048) (q : Fin 512) (k : Fin 8192) (o : Fin 4096)
    (hk : k.val = 2048 * (t.val % 4) + kk.val) (ho : o.val = 512 * (t.val / 4 % 8) + q.val) :
    bblk V c t (ix2 kk q) = warr V c (ix2 k o) :=
  wblk_apply c (V c main_v4) t (ix2 kk q) (ix2 k o) hk ho

/-- What step t adds to the accumulator's entry (p, q): run t mod 4 of the terms of the result's entry (b, o) that
    (p, q) stands for. -/
theorem step_sum (c : Dev nD) (t : Fin cfg1.N) (p : Fin 1024) (q : Fin 512) (b o : Fin 4096)
    (hb : b.val = 1024 * (t.val / 32) + p.val) (ho : o.val = 512 * (t.val / 4 % 8) + q.val) :
    ∑ kk : Fin 2048, ablk V c t (ix2 p kk) * bblk V c t (ix2 kk q) = runSum (term (harr V c) (warr V c) b o) (t.val % 4) := by
  rw [runSum_term]
  refine Finset.sum_congr rfl fun kk _ => ?_
  have hk : (2048 * (t.val % 4) + kk.val) % 8192 = 2048 * (t.val % 4) + kk.val :=
    Nat.mod_eq_of_lt (by have := kk.isLt; omega)
  rw [ablk_apply V c t p kk b ⟨(2048 * (t.val % 4) + kk.val) % 8192, Nat.mod_lt _ (by decide)⟩ hb hk,
    bblk_apply V c t kk q ⟨(2048 * (t.val % 4) + kk.val) % 8192, Nat.mod_lt _ (by decide)⟩ o hk ho]

/-! ## The invariant -/

/-- THE ACCUMULATION: after point n the accumulator's entry (p, q) holds the runs 0 … n mod 4 of the terms of the
    result's entry (b, o) it stands for, added in order onto zero. By induction on the point: a first step starts
    from zero; a later step continues what the point before left, which stands for the same entries of the result
    because the two points differ in the step only. -/
theorem acc_eq (c : Dev nD) : ∀ (n : ℕ) (hn : n < cfg1.N) (p : Fin 1024) (q : Fin 512) (b o : Fin 4096),
    b.val = 1024 * (n / 32) + p.val → o.val = 512 * (n / 4 % 8) + q.val →
    (outsAt1 V c n hn).2 (ix2 p q) = accUpTo (term (harr V c) (warr V c) b o) (n % 4) := by
  intro n
  induction n using Nat.strong_induction_on with
  | _ n ih =>
    intro hn p q b o hb ho
    by_cases h0 : n % 4 = 0
    · refine (congrFun (acc_first V c ⟨n, hn⟩ h0) (ix2 p q)).trans ?_
      rw [k1_pay2_apply, k1_pay1_apply, step_sum V c ⟨n, hn⟩ p q b o hb ho]
      show _ = accUpTo _ (n % 4)
      rw [h0]
      rfl
    · refine (congrFun (acc_later V c ⟨n, hn⟩ h0) (ix2 p q)).trans ?_
      rw [k1_pay2_apply, step_sum V c ⟨n, hn⟩ p q b o hb ho]
      show (outsAt1 V c (n - 1) _).2 (ix2 p q) + runSum _ (n % 4) = accUpTo _ (n % 4)
      rw [ih (n - 1) (by omega) _ p q b o (by omega) (by omega)]
      obtain ⟨m, hm⟩ : ∃ m, n % 4 = m + 1 := ⟨n % 4 - 1, by omega⟩
      rw [show (n - 1) % 4 = m by omega, hm]
      rfl

/-! ## The write-backs and the result -/

/-- What a last step writes back is its block of the product h · w. -/
theorem flushed_eq (c : Dev nD) (t : Fin cfg1.N) (hf : (cfg1.win 2).flush t = true) :
    (dat1 V c).flushed 2 t = ((cfg1.win 2).blk t).view.read (Elt Ideal) (Cert.Spec.mm2 (harr V c) (warr V c)) := by
  have h3 : t.val % 4 = 3 := (flush1_2 t).mp hf
  have hN : t.val < 128 := lt_of_lt_of_eq t.isLt (show cfg1.N = 128 from N_1)
  show (cfg1.win 2).cut (grid1.coords t) ((dat1 V c).after 2 t) = _
  rw [after1_2, out_last V c t h3]
  funext x
  have hx0 : (x 0).val < 1024 := (x 0).isLt
  have hx1 : (x 1).val < 512 := (x 1).isLt
  obtain ⟨p, hp⟩ : ∃ p : Fin 1024, p.val = (x 0).val := ⟨⟨_, hx0⟩, rfl⟩
  obtain ⟨q, hq⟩ : ∃ q : Fin 512, q.val = (x 1).val := ⟨⟨_, hx1⟩, rfl⟩
  obtain ⟨b, hb⟩ : ∃ b : Fin 4096, b.val = 1024 * (t.val / 32) + p.val := ⟨⟨_, by have := p.isLt; omega⟩, rfl⟩
  obtain ⟨o, ho⟩ : ∃ o : Fin 4096, o.val = 512 * (t.val / 4 % 8) + q.val := ⟨⟨_, by have := q.isLt; omega⟩, rfl⟩
  have hx : (cfg1.win 2).xinj (grid1.coords t) x = ix2 p q := funext fun a => Fin.ext (by
    match a with
    | ⟨0, _⟩ => exact hp.symm
    | ⟨1, _⟩ => exact hq.symm)
  show (outsAt1 V c t.val t.isLt).2 ((cfg1.win 2).xinj (grid1.coords t) x) = _
  rw [hx, acc_eq V c t.val t.isLt p q b o hb ho, h3, ← mm2_eq_accUpTo]
  exact (oblk_apply (F := Ideal) c (Cert.Spec.mm2 (harr V c) (warr V c)) t x (ix2 b o) (by rw [← hp]; exact hb) (by rw [← hq]; exact ho)).symm

end Cert.KernelIdeal.Hand.Value1

namespace Cert.KernelIdeal.Hand

open Cert.KernelIdeal Cert.KernelIdeal.Gen
open Idealize.ShloMosaic Idealize.ShloMosaic.TcCoe Idealize.SL.Sem

/-- THE RESULT of the second call: the written-back blocks tile the array, each is its block of h · w, so the array
    ends as h · w of the two arrays the call found. -/
theorem arr1_final (V : (c : Dev nD) → (b : Ref sig .tc) → Buf (Elt Ideal) ((c : Thread nD τ).loc b)) (c : Dev nD) :
    (dat1 (F := Ideal) V c).arrAt 2 cfg1.N = Cert.Spec.mm2 (V c main_v6) (V c main_v4) :=
  (dat1 V c).arrAt_eq_of_cover 2 (Cert.Spec.mm2 (V c main_v6) (V c main_v4)) (Value1.flushed_eq V c) (Value1.cover1_2 c)

end Cert.KernelIdeal.Hand

end
-- ==== Proof.LibGatherRows.lean ====
/-
  THE HOST'S GATHER OF WHOLE ROWS READ AT AN INDEX: operand [P, C], start indices [N, 1] with the index vector on
  axis 1, result [N, C]; offset axes [1], collapsed slice axes [0], start index map [0], slice sizes [1, C], no
  batching axes. Result element (n, ch) is the operand at row idx[n, 0], read signed and clamped into [0, P - 1], and
  column ch. The extents and the index width are variables; the dimension numbers are known only through the
  equations on their lists.
-/
import Idealize.ShloMosaic.PureOps.ShapeOps
import Idealize.ShloMosaic.Lib.ValueIdx

namespace Idealize.ShloMosaic.GatherRows

open Idealize.ShloMosaic Idealize.ShloMosaic.ValueIdx

/-! ## A list with one entry -/

/-- Every entry of a list that equals a one-entry list is that entry. -/
theorem getElem_singleton_of_eq {α : Type} {l : List α} {a : α} (h : l = [a]) (k : Nat) (hk : k < l.length) :
    l[k] = a := by
  subst h
  have hk0 : k = 0 := by simpa using hk
  subst hk0
  rfl

/-! ## The general gather: the start-indices index of a result index, axis by axis -/

section General
variable {s si t : Shape} (d : GatherDims s si t)

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- With one result batch axis a, the start-indices index has, off the index vector's axis, the result index's
    coordinate on a. -/
theorem siIdx_val_of_ne (j : t.Idx) (c : Fin d.startIndexMap.length) (b : Fin si.rank)
    (hb : ¬ b.val = d.indexVectorDim) (a : Fin t.rank) (ha : d.batchDims = [a]) :
    (d.siIdx j c b).val = (j a).val := by
  unfold GatherDims.siIdx
  rw [dif_neg hb]
  unfold GatherDims.siCoord
  exact congrArg (fun e => (j e).val) (getElem_singleton_of_eq ha _ _)

/-- With one offset axis b, the offset coordinate on a kept operand axis is the result index's coordinate on b. -/
theorem offCoord_of_singleton (j : t.Idx) (a : Fin s.rank) (ha : a ∈ d.sKept) (b : Fin t.rank)
    (hb : d.offsetDims = [b]) : d.offCoord j a = (j b).val := by
  unfold GatherDims.offCoord
  rw [dif_pos ha]
  exact congrArg (fun e => (j e).val) (getElem_singleton_of_eq hb _ _)

end General

/-! ## Operand [P, C], start indices [N, 1], result [N, C] -/

/-- THE GATHER READ AT (n, ch): the operand at the clamped start row and the same column. -/
theorem gather_rows_apply {α : Type} {P C N w : Nat} (hP : 0 < P)
    (d : GatherDims (⟨2, ![P, C]⟩ : Shape) (⟨2, ![N, 1]⟩ : Shape) (⟨2, ![N, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  -- no operand axis is a batching axis
  have hnb : ∀ a : Fin 2, a ∉ d.operandBatchingDims := fun a h => by rw [hob] at h; exact List.not_mem_nil h
  -- axis 0 is the one start axis and is collapsed; axis 1 is the one kept axis
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's one batch axis is axis 0
  have hbd : d.batchDims = [0] := by
    show Shape.kept _ d.offsetDims = [0]
    rw [hod]; rfl
  -- the start-indices index of (n, ch) is [n, 0], whatever the component
  have hsi : ∀ c : Fin d.startIndexMap.length, d.siIdx (ix2 n ch) c = ix2 n (0 : Fin 1) := by
    intro c
    funext b
    refine Fin.ext ?_
    match b with
    | ⟨0, hb⟩ =>
      rw [siIdx_val_of_ne d (ix2 n ch) c ⟨0, hb⟩ (by rw [hiv]; exact Nat.zero_ne_one) 0 hbd]
      rfl
    | ⟨1, hb⟩ =>
      have h1 : (d.siIdx (ix2 n ch) c ⟨1, hb⟩).val < 1 := (d.siIdx (ix2 n ch) c ⟨1, hb⟩).isLt
      show (d.siIdx (ix2 n ch) c ⟨1, hb⟩).val = 0
      omega
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl
  | ⟨1, _⟩ =>
    show d.start (ix2 n ch) idx 1 + d.batchCoord (ix2 n ch) 1 + d.offCoord (ix2 n ch) 1 = ch.val
    rw [d.batchCoord_eq_zero _ _ (hnb 1), offCoord_of_singleton d _ _ h1k 1 hod]
    simp only [Nat.add_zero]
    unfold GatherDims.start
    rw [dif_neg h1nmem, Nat.zero_add]
    rfl

end Idealize.ShloMosaic.GatherRows
-- ==== Proof.LibGatherCols.lean ====
/-
  THE HOST'S GATHER OF WHOLE COLUMNS READ AT AN INDEX.

  Picking columns of a matrix by a list of column numbers, x[:, idx] with x : [B, K] and idx : [N], lowers to a gather
  whose start indices are the [N, 1] column of idx with the index vector on axis 1, offset axes [0], collapsed slice
  axes [1], start index map [1], no batching axes and slices of one column. Result element (b, n) is x at row b and at
  the column idx[n, 0] read signed and clamped into [0, K - 1], as the gather clamps every start index.

  The extents B, K, N and the index width w are variables: nothing here evaluates a size. The dimension numbers are
  known only through the equations on their lists.
-/
import Idealize.ShloMosaic.PureOps.Ideal
import Idealize.ShloMosaic.Lib.ValueIdx

noncomputable section

namespace Idealize.ShloMosaic.GatherCols

open Idealize.ShloMosaic Idealize.ShloMosaic.ValueIdx

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

section Cols
variable {α : Type} {B K N w : Nat}
variable (d : GatherDims (⟨2, ![B, K]⟩ : Shape) (⟨2, ![N, 1]⟩ : Shape) (⟨2, ![B, N]⟩ : Shape))

/-- With the index vector on axis 1 and the one batch axis of the result its axis 1, result index (b, n) reads its
    start index at [n, 0]. -/
theorem siIdx_cols (hod : d.offsetDims = [0]) (hiv : d.indexVectorDim = 1) (b : Fin B) (n : Fin N)
    (c : Fin d.startIndexMap.length) : d.siIdx (ix2 b n) c = ix2 n (0 : Fin 1) := by
  have hbd : d.batchDims = [1] := by
    show Shape.kept _ d.offsetDims = [1]
    rw [hod]; rfl
  funext a
  refine Fin.ext ?_
  match a with
  | ⟨0, ha⟩ =>
    have hne : ¬ (⟨0, ha⟩ : Fin 2).val = d.indexVectorDim := by rw [hiv]; exact Nat.zero_ne_one
    show (d.siIdx (ix2 b n) c ⟨0, ha⟩).val = n.val
    unfold GatherDims.siIdx
    rw [dif_neg hne]
    unfold GatherDims.siCoord
    exact congrArg (fun e => ((ix2 b n : (⟨2, ![B, N]⟩ : Shape).Idx) e).val) (getElem_of_eq_singleton hbd _ _)
  | ⟨1, ha⟩ =>
    have h1 : (d.siIdx (ix2 b n) c ⟨1, ha⟩).val < 1 := (d.siIdx (ix2 b n) c ⟨1, ha⟩).isLt
    show (d.siIdx (ix2 b n) c ⟨1, ha⟩).val = 0
    omega

/-- THE GATHER READ AT (b, n): row b of the operand at the column the n-th start index names, read signed and clamped
    into [0, K - 1]. -/
theorem gather_cols_apply (hK : 0 < K)
    (hod : d.offsetDims = [0]) (hcs : d.collapsedSliceDims = [1]) (hob : d.operandBatchingDims = [])
    (hsm : d.startIndexMap = [1]) (hiv : d.indexVectorDim = 1)
    (x : (⟨2, ![B, K]⟩ : Shape).Idx → α) (idx : IVec (⟨2, ![N, 1]⟩ : Shape) w) (b : Fin B) (n : Fin N) :
    Host.gather d x idx (ix2 b n)
      = x (ix2 b ⟨min (idx (ix2 n (0 : Fin 1))).toInt.toNat (K - 1), by omega⟩) := by
  have h10 : ¬ (1 : Fin 2) = 0 := fun h => absurd (congrArg Fin.val h) Nat.one_ne_zero
  have h01 : ¬ (0 : Fin 2) = 1 := fun h => absurd (congrArg Fin.val h) Nat.zero_ne_one
  have hnb : ∀ a : Fin 2, a ∉ d.operandBatchingDims := fun a => by rw [hob]; exact List.not_mem_nil
  have hsk : d.sKept = [0] := by
    show Shape.kept _ (d.collapsedSliceDims ++ d.operandBatchingDims) = [0]
    rw [hcs, hob]; rfl
  unfold Host.gather
  congr 1
  funext a
  refine Fin.ext ?_
  show d.start (ix2 b n) idx a + d.batchCoord (ix2 b n) a + d.offCoord (ix2 b n) a = _
  rw [d.batchCoord_eq_zero _ _ (hnb a), Nat.add_zero]
  match a with
  | ⟨0, ha⟩ =>
    have hns : (⟨0, ha⟩ : Fin 2) ∉ d.startIndexMap := by
      rw [hsm]; exact fun h => h01 (List.mem_singleton.1 h)
    have hk0 : (⟨0, ha⟩ : Fin 2) ∈ d.sKept := by rw [hsk]; exact List.mem_singleton.2 rfl
    have hst : d.start (ix2 b n) idx ⟨0, ha⟩ = 0 := by
      unfold GatherDims.start
      rw [dif_neg hns]
    have hoff : d.offCoord (ix2 b n) ⟨0, ha⟩ = b.val := by
      unfold GatherDims.offCoord
      rw [dif_pos hk0]
      exact congrArg (fun e => ((ix2 b n : (⟨2, ![B, N]⟩ : Shape).Idx) e).val) (getElem_of_eq_singleton hod _ _)
    rw [hst, hoff, Nat.zero_add]
  | ⟨1, ha⟩ =>
    have hs : (⟨1, ha⟩ : Fin 2) ∈ d.startIndexMap := by rw [hsm]; exact List.mem_singleton.2 rfl
    have hc : (⟨1, ha⟩ : Fin 2) ∈ d.collapsedSliceDims := by rw [hcs]; exact List.mem_singleton.2 rfl
    have hnk : (⟨1, ha⟩ : Fin 2) ∉ d.sKept := fun h => ((d.mem_sKept _).1 h).1 hc
    have hsl : d.sliceSizes ⟨1, ha⟩ = 1 := d.slice_collapsed _ hc
    have hst : d.start (ix2 b n) idx ⟨1, ha⟩ = min (idx (ix2 n (0 : Fin 1))).toInt.toNat (K - 1) := by
      unfold GatherDims.start
      rw [dif_pos hs, siIdx_cols d hod hiv b n, hsl]
      rfl
    rw [hst, d.offCoord_eq_zero _ _ hnk, Nat.add_zero]

end Cols

end Idealize.ShloMosaic.GatherCols

end
-- ==== Proof.PreRange.lean ====
/-
  The index range stated by the precondition.

  The precondition is a conjunction: every entry of the three float arrays is finite, and every entry idx[n] of the
  index vector satisfies -16384 ≤ idx[n] and idx[n] < 16384, both comparisons signed. The conjunction is a chain of
  one-bit "and"s whose last two operands are the two "all" reductions over the index vector. A reduction by "and"
  that came out 1 met a 1 at every element, and an element of a signed comparison being 1 is the comparison of the
  two words read as integers. The word 4294950912 read signed is -16384.
-/
import proofs.«424474_j74629351735482_3_alg».proof.Defs
import proofs.«424474_j74629351735482_3_alg».proof.Proof.Gen.Pre_finite_inputs
import Idealize.ShloMosaic.Lib.ReduceAll
import Idealize.ShloMosaic.Lib.ValueIdx

noncomputable section

namespace Cert.KernelIdeal.Hand

open Cert.KernelIdeal Idealize.ShloMosaic Idealize.ShloMosaic.TcCoe Idealize.SL.Sem Idealize.ShloMosaic.ValueIdx

/-- A rank-0 array has one index. -/
instance subsingleton_scalar_idx : Subsingleton Cert.Pre_finite_inputs.S_.Idx :=
  ⟨fun _ _ => funext fun d => d.elim0⟩

/-- The printed predicate being all ones says that every index word lies in [-16384, 16384), read signed. Nothing
    here depends on the float family: only the two integer conjuncts are opened. -/
theorem range_of_fn {F : FTy → Type} [FloatOps F]
    (x0 : FVec F Cert.Pre_finite_inputs.S4096x4096 .f32) (x1 : IVec Cert.Pre_finite_inputs.S8192 32)
    (x2 : FVec F Cert.Pre_finite_inputs.S16384x4096 .f32) (x3 : FVec F Cert.Pre_finite_inputs.S4096x16384 .f32)
    (h : Cert.Pre_finite_inputs.fn (F := F) x0 x1 x2 x3 = fun _ => 1#1) (n : Fin 8192) :
    -16384 ≤ (x1 (ix1 n)).toInt ∧ (x1 (ix1 n)).toInt < 16384 := by
  have e := congrFun h ix0
  dsimp only [Cert.Pre_finite_inputs.fn, Cert.Pre_finite_inputs.fn_part1] at e
  -- the outermost "and" splits off the upper bound's reduction, the next one the lower bound's
  obtain ⟨hrest, hupper⟩ := IntOp.andi_eq_one.1 e
  obtain ⟨-, hlower⟩ := IntOp.andi_eq_one.1 hrest
  -- each reduction over the whole vector is 1, so its element n is 1
  have hge := Host.reduce_andi_all _ _ _ _ _ hlower (ix1 n)
  have hlt := Host.reduce_andi_all _ _ _ _ _ hupper (ix1 n)
  -- the element is the signed comparison of idx[n] with the broadcast constant
  have hge' : IntOp.cmpi .sge (x1 (ix1 n)) 4294950912#32 = 1#1 := hge
  have hlt' : IntOp.cmpi .slt (x1 (ix1 n)) 16384#32 = 1#1 := hlt
  rw [IntOp.cmpi_sge] at hge'
  rw [IntOp.cmpi_slt] at hlt'
  have hlo : (4294950912#32 : BitVec 32).toInt = -16384 := by decide
  have hhi : (16384#32 : BitVec 32).toInt = 16384 := by decide
  exact ⟨hlo ▸ hge', hhi ▸ hlt'⟩

/-- Under the precondition every entry of the index vector, on every device, lies in [-16384, 16384). -/
theorem range_of_pre (m : (ℓ : Loc nD τ sig) → Buf (Elt Ideal) ℓ) (hpre : Cert.Pre_KernelIdeal m) (c : Dev nD)
    (n : Fin 8192) :
    -16384 ≤ ((m ((c.tc : Thread nD τ).loc main_arg1) : IVec S8192 32) (ix1 n)).toInt
      ∧ ((m ((c.tc : Thread nD τ).loc main_arg1) : IVec S8192 32) (ix1 n)).toInt < 16384 :=
  range_of_fn (F := Ideal) _ _ _ _ (hpre c) n

end Cert.KernelIdeal.Hand

end
-- ==== Proof.KIHost.lean ====
/-
  What the host part of the program leaves in the three arrays the two matrix-product regions read.

  Before the first region the program computes, from the index vector idx (8192 words), the activations x, the first
  weight matrix fc1 (16384 × 4096) and the second weight matrix fc2 (4096 × 16384):

  * the wrapped indices idx' = where(idx < 0, idx + 16384, idx), kept as a column of 8192 rows;
  * a row selection of a 16384 × 4096 table T by idx' with out-of-range rows filled: row n of the result is row idx'[n]
    of T when 0 ≤ idx'[n] ≤ 16383 and a row of one fixed fill word otherwise. The selection is a gather (which clamps
    its start row into the table) followed by a select on the range test, the test reduced over the column's unit axis
    and spread along the row;
  * w1 = that selection of fc1, w2g = that selection of the transpose of fc2, and x itself, each then changed to the
    16-bit float format.

  The two selections are the same function of (table, indices): `takeRows`. Each array is read off the fold of the
  stretch that writes it; a later stretch that does not write an array leaves it as it was.
-/
import proofs.«424474_j74629351735482_3_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The wrapped indices as a column: idx + 16384 where idx is negative, idx elsewhere. -/
def wrapIdx (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 16384#32))) idx)

/-- The range test of the wrapped indices, one bit per row: 0 ≤ idx'[n] and idx'[n] ≤ 16383, reduced over the
    column's unit axis. -/
def inRange (idx : IVec S8192 32) : IVec S8192 1 :=
  Host.reduce IntOp.andi
    (andi (cmpi .sge (wrapIdx idx) (broadcastInDim S8192x1 ![] bcast_S_S8192x1 (constantI S_ 32 0#32)))
      (cmpi .sle (wrapIdx idx)
        (broadcastInDim S8192x1 ![0, 1] bcast_S1x1_S8192x1_0_1
          (broadcastInDim S1x1 ![1] bcast_S1_S1x1_1 (constantI S1 32 16383#32)))))
    (constantI S_ 1 1#1) reducesTo_S8192x1_S8192_d1 h_S_

/-- Rows of a 16384 × 4096 table selected by the wrapped indices, a row whose index is out of range filled with the
    fill word. -/
def takeRows (T : FVec F S16384x4096 .f32) (idx : IVec S8192 32) : FVec F S8192x4096 .f32 :=
  select (broadcastInDim S8192x4096 ![0] bcast_S8192_S8192x4096_0 (inRange idx))
    (Host.gather gather_S16384x4096_S8192x1_S8192x4096_1_0_n_n_0_1_14096 T (wrapIdx idx))
    (broadcastInDim S8192x4096 ![] bcast_S_S8192x4096 (constant S_ .f32 0x7FC00000#32))

/-! ## Each stretch, from any contents -/

/-- The first selection: from contents W the first stretch leaves in its result the rows of W's fc1 selected by W's
    index vector. -/
theorem stretch0_result (W : Valuation τ sig (Elt F)) :
    (StableHlo.after hostOps0 W (Proc.devRef .tc main_v0) : FVec F S8192x4096 .f32)
      = takeRows (W (Proc.devRef .tc main_arg2)) (W (Proc.devRef .tc main_arg1)) := by
  after_results_simp
  rfl

/-- The second stretch changes the first selection's format and transposes fc2. -/
theorem stretch1_v1 (W : Valuation τ sig (Elt F)) :
    (StableHlo.after hostOps0_1 W (Proc.devRef .tc main_v1) : FVec F S8192x4096 .bf16)
      = truncf .bf16 (W (Proc.devRef .tc main_v0) : FVec F S8192x4096 .f32) bitsLt_bf16_f32 := by
  after_results

theorem stretch1_v2 (W : Valuation τ sig (Elt F)) :
    (StableHlo.after hostOps0_1 W (Proc.devRef .tc main_v2) : FVec F S16384x4096 .f32)
      = transpose S16384x4096 [1, 0] (W (Proc.devRef .tc main_arg3) : FVec F S4096x16384 .f32)
          transposes_S4096x16384_S16384x4096_1_0 := by
  after_results

/-- The second selection: the same rows of the transposed fc2. -/
theorem stretch2_result (W : Valuation τ sig (Elt F)) :
    (StableHlo.after hostOps0_2 W (Proc.devRef .tc main_v3) : FVec F S8192x4096 .f32)
      = takeRows (W (Proc.devRef .tc main_v2)) (W (Proc.devRef .tc main_arg1)) := by
  after_results_simp
  rfl

/-- The last stretch changes the second selection's format and the activations'. -/
theorem stretch3_v4 (W : Valuation τ sig (Elt F)) :
    (StableHlo.after hostOps0_3 W (Proc.devRef .tc main_v4) : FVec F S8192x4096 .bf16)
      = truncf .bf16 (W (Proc.devRef .tc main_v3) : FVec F S8192x4096 .f32) bitsLt_bf16_f32 := by
  after_results

theorem stretch3_v5 (W : Valuation τ sig (Elt F)) :
    (StableHlo.after hostOps0_3 W (Proc.devRef .tc main_v5) : FVec F S4096x4096 .bf16)
      = truncf .bf16 (W (Proc.devRef .tc main_arg0) : FVec F S4096x4096 .f32) bitsLt_bf16_f32 := by
  after_results

/-! ## The three arrays after the four stretches -/

variable (m : (ℓ : Loc nD τ sig) → Buf (Elt F) ℓ)

/-- The activations, in the 16-bit format. -/
theorem V4_main_v5 (c : Dev nD) :
    (V4 m c main_v5 : FVec F S4096x4096 .bf16)
      = truncf .bf16 (m ((c : Thread nD τ).loc main_arg0) : FVec F S4096x4096 .f32) bitsLt_bf16_f32 := by
  have hx : V3 m c main_arg0 = m ((c : Thread nD τ).loc main_arg0) :=
    (V3_of m c main_arg0 (by decide)).trans <| (V2_of m c main_arg0 (by decide)).trans <|
      (V1_of m c main_arg0 (by decide)).trans rfl
  exact (stretch3_v5 (V3 m c)).trans (congrArg (fun a => truncf .bf16 (a : FVec F S4096x4096 .f32) bitsLt_bf16_f32) hx)

/-- The selected rows of fc1, in the 16-bit format. -/
theorem V4_main_v1 (c : Dev nD) :
    (V4 m c main_v1 : FVec F S8192x4096 .bf16)
      = truncf .bf16
          (takeRows (m ((c : Thread nD τ).loc main_arg2) : FVec F S16384x4096 .f32)
            (m ((c : Thread nD τ).loc main_arg1) : IVec S8192 32)) bitsLt_bf16_f32 := by
  have hkeep : V4 m c main_v1 = V2 m c main_v1 :=
    (V4_of m c main_v1 (by decide)).trans (V3_of m c main_v1 (by decide))
  have hsel : (V1 m c main_v0 : FVec F S8192x4096 .f32)
      = takeRows (m ((c : Thread nD τ).loc main_arg2) : FVec F S16384x4096 .f32)
          (m ((c : Thread nD τ).loc main_arg1) : IVec S8192 32) := stretch0_result (V0 m c)
  exact hkeep.trans ((stretch1_v1 (V1 m c)).trans
    (congrArg (fun a => truncf .bf16 (a : FVec F S8192x4096 .f32) bitsLt_bf16_f32) hsel))

/-- The selected rows of the transpose of fc2, in the 16-bit format. -/
theorem V4_main_v4 (c : Dev nD) :
    (V4 m c main_v4 : FVec F S8192x4096 .bf16)
      = truncf .bf16
          (takeRows
            (transpose S16384x4096 [1, 0] (m ((c : Thread nD τ).loc main_arg3) : FVec F S4096x16384 .f32)
              transposes_S4096x16384_S16384x4096_1_0)
            (m ((c : Thread nD τ).loc main_arg1) : IVec S8192 32)) bitsLt_bf16_f32 := by
  have hw : V1 m c main_arg3 = m ((c : Thread nD τ).loc main_arg3) := (V1_of m c main_arg3 (by decide)).trans rfl
  have hi : V2 m c main_arg1 = m ((c : Thread nD τ).loc main_arg1) :=
    (V2_of m c main_arg1 (by decide)).trans <| (V1_of m c main_arg1 (by decide)).trans rfl
  have ht : (V2 m c main_v2 : FVec F S16384x4096 .f32)
      = transpose S16384x4096 [1, 0] (m ((c : Thread nD τ).loc main_arg3) : FVec F S4096x16384 .f32)
          transposes_S4096x16384_S16384x4096_1_0 :=
    (stretch1_v2 (V1 m c)).trans
      (congrArg (fun a => transpose S16384x4096 [1, 0] (a : FVec F S4096x16384 .f32)
        transposes_S4096x16384_S16384x4096_1_0) hw)
  have hsel : (V3 m c main_v3 : FVec F S8192x4096 .f32)
      = takeRows
          (transpose S16384x4096 [1, 0] (m ((c : Thread nD τ).loc main_arg3) : FVec F S4096x16384 .f32)
            transposes_S4096x16384_S16384x4096_1_0)
          (m ((c : Thread nD τ).loc main_arg1) : IVec S8192 32) := by
    refine (stretch2_result (V2 m c)).trans ?_
    rw [ht, hi]
  exact (stretch3_v4 (V3 m c)).trans
    (congrArg (fun a => truncf .bf16 (a : FVec F S8192x4096 .f32) bitsLt_bf16_f32) hsel)

end Cert.KernelIdeal.Hand

end
-- ==== Proof.Bridge.lean ====
/-
  The bridge between what the two matrix-product regions compute and the reference's result.

  Write x for the activations (4096 × 4096), idx for the index vector (8192 words), fc1 (16384 × 4096) and
  fc2 (4096 × 16384) for the two weight matrices, and idx'[k] = idx[k] + 16384 if idx[k] < 0, else idx[k], for the
  wrapped index. Let r(k) be idx'[k] read signed and clamped into [0, 16383], the row a gather starts at.

  The reference gathers rows of fc1 and columns of fc2 at idx':
      g1(k, i) = fc1(r(k), i),   w2(o, k) = fc2(o, r(k)),
      out(b, o) = Σ_k (Σ_i x(b, i) · g1(k, i)) · w2(o, k).

  The kernel's program selects rows of fc1 and of the transpose of fc2 at idx', but fills a row with a fixed word
  when idx'[k] falls outside [0, 16383]. Under the precondition -16384 ≤ idx[k] < 16384 the wrapped index lies in
  [0, 16383], so the range test is 1 in every row and nothing is filled:
      w1(k, i) = fc1(r(k), i),   w2g(k, o) = (fc2 transposed)(r(k), o) = fc2(o, r(k)),
  and the two regions compute Σ_k (Σ_i x(b, i) · w1(k, i)) · w2g(k, o). The changes of float format are the identity on
  the extended reals. So the two sums have equal terms, index by index; no law of arithmetic is used.
-/
import proofs.«424474_j74629351735482_3_alg».proof.Defs
import proofs.«424474_j74629351735482_3_alg».proof.Proof.Gen.KernelIdeal.Regions
import proofs.«424474_j74629351735482_3_alg».proof.Proof.Gen.ReferenceIdeal.Read
import proofs.«424474_j74629351735482_3_alg».proof.Proof.Gen.Pre_finite_inputs
import proofs.«424474_j74629351735482_3_alg».proof.Proof.Spec
import proofs.«424474_j74629351735482_3_alg».proof.Proof.LibGatherRows
import proofs.«424474_j74629351735482_3_alg».proof.Proof.LibGatherCols
import proofs.«424474_j74629351735482_3_alg».proof.Proof.PreRange
import proofs.«424474_j74629351735482_3_alg».proof.Proof.KIHost
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx

/-! ## Words -/

/-- A word in [-16384, 16384) wrapped by adding 16384 when negative lies in [0, 16383]. The sum does not leave the
    signed range, so it is the sum of the integers. -/
theorem wrap_range (w : BitVec 32) (h1 : -16384 ≤ w.toInt) (h2 : w.toInt < 16384) :
    0 ≤ (Scalar.select (IntOp.cmpi .slt w 0#32) (IntOp.addi w 16384#32) w).toInt
      ∧ (Scalar.select (IntOp.cmpi .slt w 0#32) (IntOp.addi w 16384#32) w).toInt ≤ 16383 := by
  have h0 : (0#32 : BitVec 32).toInt = 0 := by decide
  have hc : (16384#32 : BitVec 32).toInt = 16384 := by decide
  by_cases hneg : w.toInt < 0
  · have hb : IntOp.cmpi .slt w 0#32 = 1#1 := IntOp.cmpi_slt.2 (by rw [h0]; exact hneg)
    rw [hb, select_one]
    have hs : (IntOp.addi w 16384#32).toInt = w.toInt + 16384 := by
      show (w + 16384#32).toInt = _
      rw [BitVec.toInt_add, hc]
      exact Int.bmod_eq_of_le_mul_two (by omega) (by omega)
    rw [hs]; omega
  · have hb : IntOp.cmpi .slt w 0#32 = 0#1 :=
      eq_zero_of_ne_one (fun h => hneg (by have := IntOp.cmpi_slt.1 h; rw [h0] at this; exact this))
    rw [hb, select_zero]
    omega

/-- A left fold by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- A reduction by "and" from 1 of an array of ones is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hall : ∀ i, x i = 1#1)
    (j : t.Idx) : Host.reduce IntOp.andi x init h hu j = 1#1 := by
  rw [Host.reduce_eq_foldl, hinit]
  exact foldl_andi_one x _ (fun i _ => hall i)

/-! ## The selection of rows, read at an index -/

/-- Row n of the wrapped-index column is the wrapped word of idx[n]. -/
theorem wrapIdx_apply (idx : IVec S8192 32) (n : Fin 8192) (z : Fin 1) :
    wrapIdx idx (ix2 n z)
      = Scalar.select (IntOp.cmpi .slt (idx (ix1 n)) 0#32) (IntOp.addi (idx (ix1 n)) 16384#32) (idx (ix1 n)) := by
  unfold wrapIdx
  refine (broadcastInDim_apply _ bcast_S8192_S8192x1_0 _ (ix2 n z) (ix1 n) (fun a => ?_)).trans rfl
  match a with
  | ⟨0, _⟩ => show n.val = if (8192 : Nat) = 1 then 0 else n.val; rw [if_neg (by decide)]

/-- With every index word in [-16384, 16384) the range test of the wrapped indices is 1 in every row. -/
theorem inRange_eq_one (idx : IVec S8192 32)
    (hr : ∀ n : Fin 8192, -16384 ≤ (idx (ix1 n)).toInt ∧ (idx (ix1 n)).toInt < 16384) (j : S8192.Idx) :
    inRange idx j = 1#1 := by
  have h0 : (0#32 : BitVec 32).toInt = 0 := by decide
  have hm : (16383#32 : BitVec 32).toInt = 16383 := by decide
  unfold inRange
  refine reduce_andi_of_all _ _ _ _ rfl (fun i => ?_) j
  obtain ⟨n, z, rfl⟩ : ∃ (n : Fin 8192) (z : Fin 1), i = ix2 n z := ⟨i 0, i 1, eq_ix2 i⟩
  have hw := wrap_range (idx (ix1 n)) (hr n).1 (hr n).2
  show IntOp.andi (IntOp.cmpi .sge (wrapIdx idx (ix2 n z)) 0#32) (IntOp.cmpi .sle (wrapIdx idx (ix2 n z)) 16383#32) = 1#1
  rw [wrapIdx_apply]
  exact IntOp.andi_eq_one.2 ⟨IntOp.cmpi_sge.2 (by rw [h0]; exact hw.1), IntOp.cmpi_sle.2 (by rw [hm]; exact hw.2)⟩

/-- The row a gather by the wrapped indices starts at for result row n: the wrapped word read signed, clamped into
    the table. -/
def rowOf (idx : IVec S8192 32) (n : Fin 8192) : Fin 16384 :=
  ⟨min ((wrapIdx idx) (ix2 n (0 : Fin 1))).toInt.toNat (16384 - 1), by omega⟩

/-- With the indices in range, the selection reads row r(n) of the table: nothing is filled. -/
theorem takeRows_apply {F : FTy → Type} [FloatOps F] (T : FVec F S16384x4096 .f32) (idx : IVec S8192 32)
    (hr : ∀ n : Fin 8192, -16384 ≤ (idx (ix1 n)).toInt ∧ (idx (ix1 n)).toInt < 16384) (n : Fin 8192) (ch : Fin 4096) :
    takeRows T idx (ix2 n ch) = T (ix2 (rowOf idx n) ch) := by
  have hm : broadcastInDim S8192x4096 ![0] bcast_S8192_S8192x4096_0 (inRange idx) (ix2 n ch) = 1#1 := by
    refine (broadcastInDim_apply _ bcast_S8192_S8192x4096_0 _ (ix2 n ch) (ix1 n) (fun a => ?_)).trans
      (inRange_eq_one idx hr _)
    match a with
    | ⟨0, _⟩ => show n.val = if (8192 : Nat) = 1 then 0 else n.val; rw [if_neg (by decide)]
  unfold takeRows
  rw [select_apply, hm, select_one]
  exact GatherRows.gather_rows_apply (by decide) gather_S16384x4096_S8192x1_S8192x4096_1_0_n_n_0_1_14096
    rfl rfl rfl rfl rfl rfl rfl T (wrapIdx idx) n ch

/-! ## The reference's two gathers, read at an index -/

/-- The reference's start indices, for both of its gathers, are the same wrapped-index column. -/
theorem ref_start_rows (idx : IVec S8192 32) : Cert.ReferenceIdeal.Read.val_main_v5 (F := Ideal) idx = wrapIdx idx := rfl
theorem ref_start_cols (idx : IVec S8192 32) : Cert.ReferenceIdeal.Read.val_main_v12 (F := Ideal) idx = wrapIdx idx := rfl

/-- The reference's gathered rows of fc1. -/
theorem ref_rows_apply (idx : IVec S8192 32) (fc1 : FVec Ideal S16384x4096 .f32) (k : Fin 8192) (i : Fin 4096) :
    Cert.ReferenceIdeal.Read.val_main_v6 (F := Ideal) idx fc1 (ix2 k i) = fc1 (ix2 (rowOf idx k) i) := by
  unfold Cert.ReferenceIdeal.Read.val_main_v6
  rw [ref_start_rows]
  exact GatherRows.gather_rows_apply (by decide)
    Cert.ReferenceIdeal.gather_S16384x4096_S8192x1_S8192x4096_1_0_n_n_0_1_14096
    rfl rfl rfl rfl rfl rfl rfl fc1 (wrapIdx idx) k i

/-- The reference's gathered columns of fc2. -/
theorem ref_cols_apply (idx : IVec S8192 32) (fc2 : FVec Ideal S4096x16384 .f32) (o : Fin 4096) (k : Fin 8192) :
    Cert.ReferenceIdeal.Read.val_main_v13 (F := Ideal) idx fc2 (ix2 o k) = fc2 (ix2 o (rowOf idx k)) := by
  unfold Cert.ReferenceIdeal.Read.val_main_v13
  rw [ref_start_cols]
  exact GatherCols.gather_cols_apply
    Cert.ReferenceIdeal.gather_S4096x16384_S8192x1_S4096x8192_0_1_n_n_1_1_40961 (by decide)
    rfl rfl rfl rfl rfl fc2 (wrapIdx idx) o k

/-! ## The two sides, term by term -/

/-- Over the four argument arrays: the two products of the selected and converted arrays are the reference's result. -/
theorem bridge_core (x : FVec Ideal S4096x4096 .f32) (idx : IVec S8192 32) (fc1 : FVec Ideal S16384x4096 .f32)
    (fc2 : FVec Ideal S4096x16384 .f32)
    (hr : ∀ n : Fin 8192, -16384 ≤ (idx (ix1 n)).toInt ∧ (idx (ix1 n)).toInt < 16384) :
    Cert.Spec.mm2
        (Cert.Spec.mm1 (truncf .bf16 x bitsLt_bf16_f32 : FVec Ideal S4096x4096 .bf16)
          (truncf .bf16 (takeRows fc1 idx) bitsLt_bf16_f32 : FVec Ideal S8192x4096 .bf16))
        (truncf .bf16 (takeRows (transpose S16384x4096 [1, 0] fc2 transposes_S4096x16384_S16384x4096_1_0) idx)
          bitsLt_bf16_f32 : FVec Ideal S8192x4096 .bf16)
      = Cert.ReferenceIdeal.Read.val_main_v15 (F := Ideal) x idx fc1 fc2 := by
  funext j
  obtain ⟨b, o, rfl⟩ : ∃ (b : Fin 4096) (o : Fin 4096), j = ix2 b o := ⟨j 0, j 1, eq_ix2 j⟩
  rw [Cert.Spec.mm2_apply, Cert.ReferenceIdeal.Read.val_main_v15_apply]
  refine Finset.sum_congr rfl fun k _ => ?_
  -- the reference's operand indices at (b, o) and k are (b, k) and (o, k)
  have el : Cert.ReferenceIdeal.Read.lidx_main_v15 (ix2 b o) k = ix2 b k :=
    funext fun a => Fin.ext (by match a with | ⟨0, _⟩ => rfl | ⟨1, _⟩ => rfl)
  have er : Cert.ReferenceIdeal.Read.ridx_main_v15 (ix2 b o) k = ix2 o k :=
    funext fun a => Fin.ext (by match a with | ⟨0, _⟩ => rfl | ⟨1, _⟩ => rfl)
  rw [el, er, Cert.Spec.mm1_apply, Cert.ReferenceIdeal.Read.val_main_v14_apply, ref_cols_apply]
  -- the second factors: row r(k) of the transpose of fc2 at column o is fc2 at (o, r(k))
  have hw2 : (truncf .bf16 (takeRows (transpose S16384x4096 [1, 0] fc2 transposes_S4096x16384_S16384x4096_1_0) idx)
      bitsLt_bf16_f32 : FVec Ideal S8192x4096 .bf16) (ix2 k o) = fc2 (ix2 o (rowOf idx k)) := by
    rw [truncf_apply, takeRows_apply _ idx hr k o]
    exact transpose_ix2_apply fc2 transposes_S4096x16384_S16384x4096_1_0 (rowOf idx k) o
  rw [hw2]
  refine congrArg (· * fc2 (ix2 o (rowOf idx k))) ?_
  -- the first factors: the inner sums agree term by term
  refine Finset.sum_congr rfl fun i _ => ?_
  have el' : Cert.ReferenceIdeal.Read.lidx_main_v14 (ix2 b k) i = ix2 b i :=
    funext fun a => Fin.ext (by match a with | ⟨0, _⟩ => rfl | ⟨1, _⟩ => rfl)
  have er' : Cert.ReferenceIdeal.Read.ridx_main_v14 (ix2 b k) i = ix2 k i :=
    funext fun a => Fin.ext (by match a with | ⟨0, _⟩ => rfl | ⟨1, _⟩ => rfl)
  rw [el', er', ref_rows_apply, truncf_apply, truncf_apply, takeRows_apply fc1 idx hr k i]

/-- THE BRIDGE: what the two regions compute from the arrays the host part leaves is the reference's result over the
    argument arrays. -/
theorem kernel_bridge (m : (ℓ : Loc nD τ sig) → Buf (Elt Ideal) ℓ) (hpre : Cert.Pre_KernelIdeal m) (c : Dev nD) :
    Cert.Spec.mm2 (Cert.Spec.mm1 (Gen.V4 m c main_v5) (Gen.V4 m c main_v1)) (Gen.V4 m c main_v4)
      = Cert.ReferenceIdeal.Read.val_main_v15 (F := Ideal) (m ((c.tc : Thread nD τ).loc main_arg0))
          (m ((c.tc : Thread nD τ).loc main_arg1)) (m ((c.tc : Thread nD τ).loc main_arg2))
          (m ((c.tc : Thread nD τ).loc main_arg3)) := by
  refine Eq.trans ?_ (bridge_core (m ((c.tc : Thread nD τ).loc main_arg0)) (m ((c.tc : Thread nD τ).loc main_arg1))
    (m ((c.tc : Thread nD τ).loc main_arg2)) (m ((c.tc : Thread nD τ).loc main_arg3)) (range_of_pre m hpre c))
  exact congr (congrArg Cert.Spec.mm2 (congr (congrArg Cert.Spec.mm1 (V4_main_v5 m c)) (V4_main_v1 m c)))
    (V4_main_v4 m c)

end Cert.KernelIdeal.Hand

end
-- ==== Proof.KIValue.lean ====
import proofs.«424474_j74629351735482_3_alg».proof.Defs
import proofs.«424474_j74629351735482_3_alg».proof.Proof.KIRun
import proofs.«424474_j74629351735482_3_alg».proof.Proof.KIValue0
import proofs.«424474_j74629351735482_3_alg».proof.Proof.KIValue1
import proofs.«424474_j74629351735482_3_alg».proof.Proof.Bridge

/-! # What the kernel program leaves in its result array, over the extended reals

The second call's write-backs leave the product of the intermediate array h with the gathered columns; h is what
the first call's write-backs leave, the product of the rounded activations with the transposed gathered rows; and
the operands are what the host stretches computed from the arguments. Over the extended reals rounding is the
identity and, the indices being in range, the fill mask of the kernel's gathers is all ones: the result is the
reference's own term of the four arguments. -/

noncomputable section

namespace Cert.KernelIdeal.Hand

open Cert.KernelIdeal Cert.KernelIdeal.Gen
open Idealize.ShloMosaic Idealize.ShloMosaic.TcCoe Idealize.SL.Sem

/-- The result array after the run is the reference's two products of the four argument arrays. -/
theorem result_value (m : (ℓ : Loc nD τ sig) → Buf (Elt Ideal) ℓ) (hpre : Cert.Pre_KernelIdeal m) (c : Dev nD) :
    (dat1 (F := Ideal) (E1 m) c).arrAt 2 cfg1.N
      = Cert.ReferenceIdeal.Read.val_main_v15 (F := Ideal) (m ((c.tc : Thread nD τ).loc main_arg0))
          (m ((c.tc : Thread nD τ).loc main_arg1)) (m ((c.tc : Thread nD τ).loc main_arg2))
          (m ((c.tc : Thread nD τ).loc main_arg3)) := by
  rw [arr1_final (E1 m) c, E1_main_v6 m c, arr0_final (E0 m) c, E1_main_v4 m c]
  exact kernel_bridge m hpre c

end Cert.KernelIdeal.Hand

end
-- ==== Proof.lean ====
/- The five claims of this certificate.

   The kernel program gathers 8192 rows of fc1 and the matching 8192 columns of fc2 on the host and multiplies
   x · w1ᵀ · w2ᵀ in two tiled matmul calls, the second accumulating over four blocks of the contraction axis in a
   scratch buffer; the reference computes the same two products with two host contractions. Over the extended reals
   roundings are the identity and a sum may be regrouped freely, so, the indices being in range (the added
   precondition: outside it the reference itself indexes out of range, and the kernel's gathers fill with a
   not-a-number pattern where the reference's clamp), both programs end with the same array.

   The frames of the two kernel programs are one text read at the two float families: the run of the program as four
   host stretches and two calls, each call's body run once per control case. The reference's frame is its run with the
   result dropped. The ideal pass rewrote nothing, so `preserves` is trivial. -/
import proofs.«424474_j74629351735482_3_alg».proof.Defs
import proofs.«424474_j74629351735482_3_alg».proof.Proof.Gen.Kernel
import proofs.«424474_j74629351735482_3_alg».proof.Proof.Gen.KernelIdeal
import proofs.«424474_j74629351735482_3_alg».proof.Proof.Gen.ReferenceIdeal
import proofs.«424474_j74629351735482_3_alg».proof.Proof.Gen.Pre_finite_inputs
import proofs.«424474_j74629351735482_3_alg».proof.Proof.Gen.ReferenceIdeal.Run
import proofs.«424474_j74629351735482_3_alg».proof.Proof.Gen.ReferenceIdeal.Read
import proofs.«424474_j74629351735482_3_alg».proof.Proof.KRun
import proofs.«424474_j74629351735482_3_alg».proof.Proof.KIRun
import proofs.«424474_j74629351735482_3_alg».proof.Proof.KIValue
import Idealize.ShloMosaic.Adequacy
import Idealize.ShloMosaic.Init

noncomputable section

namespace Cert.Proof

open Idealize.ShloMosaic Idealize.ShloMosaic.TcCoe Idealize.SL.Sem

/-- The word-level program runs and keeps its arguments: its run with the result's value dropped. -/
theorem frame_k : Cert.frame_Kernel := fun m ρ _ =>
  (θ_run Cert.Kernel.defs _ _).mono (fun _ h c => (h c).2) (Cert.Kernel.Hand.run_main (F := Bits) m ρ)

/-- The same run read over the extended reals. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the reference's two products of the four argument arrays. -/
theorem algebraic : Cert.algebraic_KernelIdeal_ReferenceIdeal := by
  intro m ρ m' ρ' hpre hagree
  refine ⟨fun c => Cert.ReferenceIdeal.Read.val_main_v15 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.result_value m hpre c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.Read.val_main_v15_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
